-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel

variable [Facts]

def fn {F : FTy → Type} [FloatOps F] (main_arg0 : FVec F S256x512 .f32) (main_arg1 : FVec F S256x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S256x512 : Shape := ⟨2, ![256, 512]⟩
abbrev S1x1 : Shape := ⟨2, ![1, 1]⟩
abbrev S32x512 : Shape := ⟨2, ![32, 512]⟩
abbrev S32x1x512 : Shape := ⟨3, ![32, 1, 512]⟩
abbrev S1x32x512 : Shape := ⟨3, ![1, 32, 512]⟩
abbrev S32x32x512 : Shape := ⟨3, ![32, 32, 512]⟩
abbrev S32x32 : Shape := ⟨2, ![32, 32]⟩
abbrev S32 : Shape := ⟨1, ![32]⟩
abbrev S1x32 : Shape := ⟨2, ![1, 32]⟩
abbrev S1 : Shape := ⟨1, ![1]⟩
abbrev S_ : Shape := ⟨0, ![]⟩

abbrev nBuf : Space → Nat
  | .hbm => 4
  | .vmem => 10
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1x1, .f32⟩
  | .hbm, ⟨3, _⟩ => ⟨S_, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S1x1, .f32⟩
  | .local _ .vmem, ⟨9, _⟩ => ⟨S1x1, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v61 : BitVec 1 := Scalar.cmpi .eq arg0 c7_i32
  let arg1 : BitVec 32 := BitVec.ofNat 32 (i 1).val
  let c7_i32_19 : BitVec 32 := 7#32
  let v62 : BitVec 1 := Scalar.cmpi .eq arg1 c7_i32_19
  let v63 : BitVec 1 := Scalar.andi v61 v62
  let v64 : BitVec 32 := Scalar.extui v63
  let c0_i32_20 : BitVec 32 := 0#32
  let v65 : BitVec 1 := Scalar.cmpi .ne v64 c0_i32_20
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x512_S32x512_0_0 : ∀ a, (![0, 0] : Fin 2 → Nat) a + S32x512.size a ≤ S32x512.size a
  h_S32x512 : 0 < S32x512.numel
  shapeCasts_S32x512_S32x1x512 : S32x512.ShapeCasts S32x1x512
  shapeCasts_S32x512_S1x32x512 : S32x512.ShapeCasts S1x32x512
  broadcasts_S32x1x512_S32x32x512 : S32x1x512.Broadcasts S32x32x512
  broadcasts_S1x32x512_S32x32x512 : S1x32x512.Broadcasts S32x32x512
  reduces_S32x32x512_S32x32 : S32x32x512.Reduces [2] S32x32
  iota_S32x32_d0_w32 : S32x32.Iotas .tc 32 [0]
  iota_S32x32_d1_w32 : S32x32.Iotas .tc 32 [1]
  natLt_1_32 : 1 < 32
  reduces_S32x32_S32 : S32x32.Reduces [1] S32
  shapeCasts_S32_S1x32 : S32.ShapeCasts S1x32
  reduces_S1x32_S1 : S1x32.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S256x512.size a
  hwx0_0 : ∀ i : grid0.Coords, EltTy.bits .f32 = 32 ∨ (Rect.block (s := S256x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S256x512.size a
  hwx0_1 : ∀ i : grid0.Coords, EltTy.bits .f32 = 32 ∨ (Rect.block (s := S256x512) S32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S256x512.size a
  hwx0_2 : ∀ i : grid0.Coords, EltTy.bits .f32 = 32 ∨ (Rect.block (s := S256x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S256x512.size a
  hwx0_3 : ∀ i : grid0.Coords, EltTy.bits .f32 = 32 ∨ (Rect.block (s := S256x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x512 : Shape := ⟨2, ![256, 512]⟩
abbrev S256x1x512 : Shape := ⟨3, ![256, 1, 512]⟩
abbrev S1x256x512 : Shape := ⟨3, ![1, 256, 512]⟩
abbrev S256x256x512 : Shape := ⟨3, ![256, 256, 512]⟩
abbrev S_ : Shape := ⟨0, ![]⟩
abbrev S256x256 : Shape := ⟨2, ![256, 256]⟩

abbrev nBuf : Space → Nat
  | .hbm => 46
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x1x512, .f32⟩
  | .hbm, ⟨4, _⟩ => ⟨S1x256x512, .f32⟩
  | .hbm, ⟨5, _⟩ => ⟨S256x1x512, .f32⟩
  | .hbm, ⟨6, _⟩ => ⟨S1x256x512, .f32⟩
  | .hbm, ⟨7, _⟩ => ⟨S256x1x512, .f32⟩
  | .hbm, ⟨8, _⟩ => ⟨S1x256x512, .f32⟩
  | .hbm, ⟨9, _⟩ => ⟨S256x256x512, .f32⟩
  | .hbm, ⟨10, _⟩ => ⟨S256x256x512, .f32⟩
  | .hbm, ⟨11, _⟩ => ⟨S256x256x512, .f32⟩
  | .hbm, ⟨12, _⟩ => ⟨S256x256x512, .f32⟩
  | .hbm, ⟨13, _⟩ => ⟨S256x256x512, .f32⟩
  | .hbm, ⟨14, _⟩ => ⟨S256x256x512, .f32⟩
  | .hbm, ⟨15, _⟩ => ⟨S256x256x512, .f32⟩
  | .hbm, ⟨16, _⟩ => ⟨S256x256x512, .f32⟩
  | .hbm, ⟨17, _⟩ => ⟨S256x256x512, .f32⟩
  | .hbm, ⟨18, _⟩ => ⟨S256x256x512, .f32⟩
  | .hbm, ⟨19, _⟩ => ⟨S256x256x512, .f32⟩
  | .hbm, ⟨20, _⟩ => ⟨S256x256x512, .f32⟩
  | .hbm, ⟨21, _⟩ => ⟨S256x256x512, .f32⟩
  | .hbm, ⟨22, _⟩ => ⟨S256x256x512, .f32⟩
  | .hbm, ⟨23, _⟩ => ⟨S_, .f32⟩
  | .hbm, ⟨24, _⟩ => ⟨S256x256x512, .f32⟩
  | .hbm, ⟨25, _⟩ => ⟨S256x256x512, .f32⟩
  | .hbm, ⟨26, _⟩ => ⟨S_, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .i32⟩
  | .hbm, ⟨32, _⟩ => ⟨S256x256, .i32⟩
  | .hbm, ⟨33, _⟩ => ⟨S_, .i32⟩
  | .hbm, ⟨34, _⟩ => ⟨S256x256, .i32⟩
  | .hbm, ⟨35, _⟩ => ⟨S256x256, .i32⟩
  | .hbm, ⟨36, _⟩ => ⟨S256x256, .i1⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩

abbrev nD : Nat := 1
abbrev τ : Topo := Topo.v7x

variable {F : FTy → Type} [FloatOps F]

class Facts₀ : Prop where
  bcast_S256x512_S256x1x512_0_2 : S256x512.BroadcastsInDim S256x1x512 (![0, 2] : Fin 2 → Fin S256x1x512.rank)
  bcast_S256x512_S1x256x512_1_2 : S256x512.BroadcastsInDim S1x256x512 (![1, 2] : Fin 2 → Fin S1x256x512.rank)
  bcast_S1x256x512_S256x256x512_0_1_2 : S1x256x512.BroadcastsInDim S256x256x512 (![0, 1, 2] : Fin 3 → Fin S256x256x512.rank)
  bcast_S256x1x512_S256x256x512_0_1_2 : S256x1x512.BroadcastsInDim S256x256x512 (![0, 1, 2] : Fin 3 → Fin S256x256x512.rank)
  bcast_S_S256x256x512 : S_.BroadcastsInDim S256x256x512 (![] : Fin 0 → Fin S256x256x512.rank)
  reducesTo_S256x256x512_S256x256_d2 : S256x256x512.ReducesTo [2] S256x256
  h_S_ : 0 < S_.numel
  bcast_S_S256x256 : S_.BroadcastsInDim S256x256 (![] : Fin 0 → Fin S256x256.rank)
  reducesTo_S256x256_S_d0_1 : S256x256.ReducesTo [0, 1] S_

variable [Facts₀]

class Facts : Prop extends Facts₀ where

variable [Facts]
-- ==== Proof.K.Base.lean ====
/-
  What the per-case runs of the kernel body and the frame of `Kernel` share, at any float instance `F`.

  The program is ONE pallas_call on an 8 × 8 grid, point `t = 8·i + j`, followed by one host reshape. Windows 0 and 1
  stage rows `32·i … 32·i+31` of the two argument arrays, windows 2 and 3 rows `32·j … 32·j+31` of the SAME two
  arrays; window 4 is the 1 × 1 result, written back once, after the last point; a 1 × 1 scratch carries the running
  sum from point to point. The body has two conditionals on the coordinates: the scratch is zeroed at `t = 0`, the
  result is stored at `t = 63`. So there are three kinds of point: the first, the last, and the 62 in between.
-/
import proofs.«155679_j38474317038467_1_alg».proof.Proof.Gen.Kernel.Launch
import proofs.«155679_j38474317038467_1_alg».proof.Proof.Gen.Kernel.Skeleton
import proofs.«155679_j38474317038467_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_v0 (c : Dev nD) : V m c main_v0 = m ((c : Thread nD τ).loc main_v0) := rfl
theorem V_main_v1 (c : Dev nD) : V m c main_v1 = m ((c : Thread nD τ).loc main_v1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block
    index has not moved and the body left the block in place), for any proof data whose array is the entry contents. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- "Zero the scratch": both coordinates are zero (the body's scalar chain, substituted). -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcondFirst : ∀ t : Fin cfg0.N, condFirst (grid0.coords t) ↔ t.val % 64 = 0 :=
  (by decide +kernel : ∀ t : Fin grid0.N, condFirst (grid0.coords t) ↔ t.val % 64 = 0)

/-- "Store the result": both coordinates are 7. -/
abbrev condLast (i : grid0.Coords) : Prop := k0_cond2 i = 1#1
/-- It holds at the last point only. -/
theorem hcondLast : ∀ t : Fin cfg0.N, condLast (grid0.coords t) ↔ t.val % 64 = 63 :=
  (by decide +kernel : ∀ t : Fin grid0.N, condLast (grid0.coords t) ↔ t.val % 64 = 63)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last point the body stores nothing into the result's buffer, -/
theorem idleAt4 : ∀ t : Fin cfg0.N, ¬condLast (grid0.coords t) → cfg0.idle 4 (grid0.coords t) = true := by decide +kernel
/-- and the pipeline does not write it back there; -/
theorem noFlush4 : ∀ t : Fin cfg0.N, ¬condLast (grid0.coords t) → (cfg0.win 4).flush t = false := by decide +kernel
/-- at the last point it does store. -/
theorem liveAt4 : ∀ t : Fin cfg0.N, condLast (grid0.coords t) → cfg0.idle 4 (grid0.coords t) = false := by decide +kernel

/-! ## The staging and scratch memrefs the body is called with -/

abbrev ms0 (t : Fin cfg0.N) : Memref sig .tc .vmem S32x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch: a whole scoped buffer of the kernel's own. -/
abbrev scM : Memref sig .tc .vmem S1x1 .f32 := Memref.whole cc0_scratch0
/-- The scratch and the result's staging buffer as views, through which their contents are stated. -/
abbrev VS : View sig .tc .vmem S1x1 .f32 := scM.view
abbrev VO : View sig .tc .vmem S1x1 .f32 := (Memref.whole cc0_stg4_0 : Memref sig .tc .vmem S1x1 .f32).view

/-- The class invariant (the scoped buffers no window stages at some contents, the generator register at some state)
    with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Frame

end
-- ==== Proof.K.Launch.lean ====
/-
  The launch of `Kernel`'s one region when two windows read each argument array.

  The pipeline holds each window's array at a share. Windows 0 and 2 read `main_arg0`, windows 1 and 3 read
  `main_arg1`: the left half of each array's full share goes to the first window on it and the right half to the
  second; window 4 holds the result array `main_v0` outright. At the region's entry the three buffers behind the five
  windows, each whole at the full share, are split that way; after the region the one host line (a reshape of the
  1 × 1 result to a scalar) reads `main_v0` out of the windows' arrays, writes `main_v1`, and hands the arrays back
  as they were.
-/
import proofs.«155679_j38474317038467_1_alg».proof.Proof.K.Base

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares at which the five windows hold their arrays. -/
abbrev halves : Fin cfg0.W → PosShare TreeShare := fun w => match w with
  | ⟨0, _⟩ => fullShare.left | ⟨1, _⟩ => fullShare.left | ⟨2, _⟩ => fullShare.right | ⟨3, _⟩ => fullShare.right | ⟨4, _⟩ => fullShare

/-- What the host line after the region leaves in the scalar result: the 1 × 1 array's one element. -/
def scalarOf (A4 : Vec F S1x1 .f32) : Vec F S_ .f32 := fun i => shapeCast S_ A4 shapeCasts_S1x1_S_ i

variable (dats : (p : Fin 1) → (c : Dev nD) → Dat τ (Elt F) Unit ℕ (UR sig nD τ) ℕ (cfgs p) c)

theorem img_eq : (Finset.univ.image (Pipeline.arrRef spec0) : Finset (Ref sig .tc)) = [main_arg0, main_arg1, main_v0].toFinset := by decide

/-- The buffers behind the five windows are three. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_v0) ↦{fullShare} W main_v0)) := by
  unfold Pipeline.arrBufs
  exact bigSep_eq_bigSepL_of_eq [main_arg0, main_arg1, main_v0] img_eq (by decide) _

/-- The five windows' arrays at contents `A`, window by window: whole buffers, the first window on each argument
    array at the left half of the full share, the second at the right half, the result array outright. -/
theorem arrays_eq5 (hq : ∀ c, (dats 0 c).q = halves) (c : Dev nD) (A : (w : Fin cfg0.W) → Buf (Elt F) ((cfg0.win w).arr.view.loc (c.tc : Thread nD τ))) :
    ((dats 0 c).arrays A : sProp 𝕄)
      = iprop((((c.tc : Thread nD τ).loc main_arg0) ↦{fullShare.left} A 0) ∗ (((c.tc : Thread nD τ).loc main_arg1) ↦{fullShare.left} A 1)
          ∗ (((c.tc : Thread nD τ).loc main_arg0) ↦{fullShare.right} A 2) ∗ (((c.tc : Thread nD τ).loc main_arg1) ↦{fullShare.right} A 3)
          ∗ (((c.tc : Thread nD τ).loc main_v0) ↦{fullShare} A 4)) := by
  have hs0 : (dats 0 c).share 0 = fullShare.left := by unfold Dat.share; rw [hq c]; rfl
  have hs1 : (dats 0 c).share 1 = fullShare.left := by unfold Dat.share; rw [hq c]; rfl
  have hs2 : (dats 0 c).share 2 = fullShare.right := by unfold Dat.share; rw [hq c]; rfl
  have hs3 : (dats 0 c).share 3 = fullShare.right := by unfold Dat.share; rw [hq c]; rfl
  have hs4 : (dats 0 c).share 4 = fullShare := by unfold Dat.share; rfl
  have hw0 : ((cfgs 0).win 0).arr.view.set = Finset.univ := (arr_whole0 0).set_eq_univ
  have hw1 : ((cfgs 0).win 1).arr.view.set = Finset.univ := (arr_whole0 1).set_eq_univ
  have hw4 : ((cfgs 0).win 4).arr.view.set = Finset.univ := (arr_whole0 4).set_eq_univ
  unfold Dat.arrays
  rw [bigSep_W0, hs0, hs1, hs2, hs3, hs4, hw0, hw1, hw4]

theorem arrays_of_bufs (hA : ∀ c w, (dats 0 c).A w = V m c (Pipeline.arrRef spec0 w)) (hq : ∀ c, (dats 0 c).q = halves) (c : Dev nD) :
    (Pipeline.arrBufs (Ix := Unit) (Name := ℕ) (U := UR sig nD τ) (Lvl := ℕ) spec0 c (V m c) : sProp 𝕄)
      ⊢ (dats 0 c).arrays ((dats 0 c).arrAt · 0) := by
  have ha0 : (dats 0 c).arrAt 0 0 = V m c main_arg0 := hA c 0
  have ha1 : (dats 0 c).arrAt 1 0 = V m c main_arg1 := hA c 1
  have ha2 : (dats 0 c).arrAt 2 0 = V m c main_arg0 := hA c 2
  have ha3 : (dats 0 c).arrAt 3 0 = V m c main_arg1 := hA c 3
  have ha4 : (dats 0 c).arrAt 4 0 = V m c main_v0 := hA c 4
  rw [arrBufs_eq, arrays_eq5 dats hq c]
  beta_reduce
  rw [ha0, ha1, ha2, ha3, ha4]
  iintro ⟨H0, H1, H4⟩
  ihave H0' := (pointsTo_share (PosShare.mem_left_op_right fullShare)).1 $$ H0
  ihave H1' := (pointsTo_share (PosShare.mem_left_op_right fullShare)).1 $$ H1
  icases H0' with ⟨H0l, H0r⟩
  icases H1' with ⟨H1l, H1r⟩
  isplitl [H0l]; · iexact H0l
  isplitl [H1l]; · iexact H1l
  isplitl [H0r]; · iexact H0r
  isplitl [H1r]; · iexact H1r
  iexact H4

set_option backward.isDefEq.respectTransparency.types false in
/-- AFTER THE REGION: the reshape reads the result array out of the windows' arrays, writes the scalar result, and
    hands the arrays back as they were. -/
theorem tail_reshape (hq : ∀ c, (dats 0 c).q = halves) (c : Dev nD)
    (A : (w : Fin cfg0.W) → Buf (Elt F) ((cfg0.win w).arr.view.loc (c.tc : Thread nD τ))) (Q' : PUnit → sProp 𝕄) :
    iprop((iprop((dats 0 c).arrays A ∗ (((c.tc : Thread nD τ).loc main_v1) ↦{fullShare} scalarOf (A 4))) -∗ Q' ⟨⟩)
        ∗ boundary (c.tc : Thread nD τ) ∗ (dats 0 c).arrays A
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ
          (Pipeline.chain [StableHlo.seq hostOps1]) Q' := by
  classical
  rw [arrays_eq5 dats hq c A, Pipeline.unscopedRestP_none, unscopedRest0_eq]
  simp only [Pipeline.chain_cons, Pipeline.chain_nil]
  iintro ⟨Hk, Hb, ⟨H0, H1, H2, H3, H4⟩, Hv1⟩
  -- the two buffers the line touches, and the contents it starts from
  let S : Finset (DevRef τ sig) := {Proc.devRef .tc main_v0, Proc.devRef .tc main_v1}
  let W : Valuation τ sig (Elt F) := Function.update (V0 m c) (Proc.devRef .tc main_v0) (A 4)
  have hne : (Proc.devRef (τ := τ) .tc main_v0) ≠ Proc.devRef .tc main_v1 := StableHlo.devRef_ne_of_ne (by decide)
  have hW0 : W (Proc.devRef .tc main_v0) = A 4 := Function.update_self ..
  have hW1 : W (Proc.devRef .tc main_v1) = V m c main_v1 := Function.update_of_ne hne.symm ..
  have hheld : ∀ W' : Valuation τ sig (Elt F), (StableHlo.held (c.tc : Thread nD τ) S W' : sProp 𝕄)
      = iprop((((c.tc : Thread nD τ).loc main_v0) ↦{fullShare} W' (Proc.devRef .tc main_v0)) ∗ (((c.tc : Thread nD τ).loc main_v1) ↦{fullShare} W' (Proc.devRef .tc main_v1))) := fun W' => by
    unfold StableHlo.held
    rw [bigSep_insert (by rw [Finset.mem_singleton]; exact hne), bigSep_singleton]
    rfl
  have hS : ∀ op ∈ (hostOps1 : List (HloOp τ sig (Elt F))), op.bufs ⊆ S := fun op hop => by
    simp only [hostOps1, List.mem_singleton] at hop
    subst hop
    exact subset_refl _
  iapply (StableHlo.wp_seq (Variants.lift Variants.none) none Set.univ c S _ hostOps1 hS
    (fun op h => (List.forall_iff_forall_mem.mp hostOps1_fresh) op h) W) $$ [Hb H4 Hv1]
  · isplitl [Hb]; · iexact Hb
    rw [hheld, hW0, hW1]
    isplitl [H4] <;> iassumption
  have ha0 : StableHlo.after hostOps1 W (Proc.devRef .tc main_v0) = A 4 := by
    show (StableHlo.reshape main_v0 main_v1 rfl shapeCasts_S1x1_S_ : HloOp τ sig (Elt F)).result W (Proc.devRef .tc main_v0) = _
    rw [StableHlo.reshape_result_ne _ _ _ _ _ _ W (by decide : main_v0 ≠ main_v1), hW0]
  have ha1 : StableHlo.after hostOps1 W (Proc.devRef .tc main_v1) = scalarOf (A 4) := by
    show (StableHlo.reshape main_v0 main_v1 rfl shapeCasts_S1x1_S_ : HloOp τ sig (Elt F)).result W (Proc.devRef .tc main_v1) = _
    rw [StableHlo.reshape_result, hW0]
    rfl
  have hfin : (StableHlo.held (c.tc : Thread nD τ) S (StableHlo.after hostOps1 W) : sProp 𝕄)
      = iprop((((c.tc : Thread nD τ).loc main_v0) ↦{fullShare} A 4) ∗ (((c.tc : Thread nD τ).loc main_v1) ↦{fullShare} scalarOf (A 4))) := by
    rw [hheld, ha0, ha1]
  iintro ⟨Hb, Hh⟩
  ihave Hh' := (Entails.of_eq hfin) $$ Hh
  icases Hh' with ⟨H4, Hv1⟩
  rw [wp_pure]
  imodintro
  iapply Hk
  isplitr [Hv1]
  · isplitl [H0]; · iexact H0
    isplitl [H1]; · iexact H1
    isplitl [H2]; · iexact H2
    isplitl [H3]; · iexact H3
    iexact H4
  · iexact Hv1

set_option backward.isDefEq.respectTransparency.types false in
/-- THE RUN: every weakly fair execution of @main terminates; every window's array then holds what the pipeline
    library computes from the proof data, and the scalar result the reshape of the result array. -/
theorem run_main_of
    (hA : ∀ c w, (dats 0 c).A w = V m c (Pipeline.arrRef spec0 w)) (hq : ∀ c, (dats 0 c).q = halves)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ r.2.mem ((c.tc : Thread nD τ).loc main_v1) = scalarOf ((dats 0 c).arrAt 4 cfg0.N)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := arrays_of_bufs m dats hA hq)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => iprop(((c.tc : Thread nD τ).loc main_v1) ↦{fullShare} scalarOf ((dats 0 c).arrAt 4 cfg0.N)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_reshape m dats hq c _ Q')
    (QY := fun c s => s.mem ((c.tc : Thread nD τ).loc main_v1) = scalarOf ((dats 0 c).arrAt 4 cfg0.N))
    (hY := fun c s' => by
      iintro ⟨-, HZ, HSI⟩
      imodintro
      icombine HSI HZ gives %h
      isplitr; · ipureintro; exact Buf.eq_of_forall_mem_univ h
      iexact HSI)
    (hQ := fun s h c => ⟨(h c).1, (h c).2.2⟩)

end Cert.Kernel.Frame

end
-- ==== Proof.K.RunFirst.lean ====
/-
  The kernel body at the grid's FIRST point (both coordinates zero): the scratch is zeroed, the four input blocks are
  loaded, the point's partial sum is added to the (just zeroed) scratch and stored back; nothing is stored to the
  result's buffer. Stated on any whole memrefs: the inputs at their blocks and the result's buffer at whatever it holds
  are handed back as they came; the scratch, found at anything, is left with the list of pieces the two stores wrote
  (last first), which is the witness the symbolic run finds.
-/
import proofs.«155679_j38474317038467_1_alg».proof.Proof.K.Base

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when the first condition holds and the second does not: the pieces the scratch ends with, and the
    triple. -/
noncomputable def kernelRunFirst (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : condFirst i) (hc2 : ¬condLast i)
    (x0 x1 x2 x3 : Vec F S32x512 .f32) :
    { LS : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, fun xi4 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Frame

end
-- ==== Proof.K.RunMid.lean ====
/-
  The kernel body at a point that is neither the first nor the last: the four input blocks are loaded, the point's
  partial sum is added to what the scratch holds (what the point before left there) and stored back; the scratch is not
  zeroed and nothing is stored to the result's buffer. On any whole memrefs: inputs and the result's buffer are handed
  back as they came; the scratch ends with the pieces of the one store, the witness the symbolic run finds.
-/
import proofs.«155679_j38474317038467_1_alg».proof.Proof.K.RunFirst

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRunMid (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : ¬condLast i)
    (x0 x1 x2 x3 : Vec F S32x512 .f32) (xs : Vec F S1x1 .f32) :
    { LS : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, fun xi4 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Frame

end
-- ==== Proof.K.RunLast.lean ====
/-
  The kernel body at the grid's LAST point (both coordinates 7): the four input blocks are loaded, the point's partial
  sum is added to what the scratch holds and stored back; then the scratch is read again and that total divided by 256
  is stored to the result's buffer. On any whole memrefs: the inputs are handed back as they came; the scratch ends with
  the pieces of its one store and the result's buffer, found at anything, with the pieces of its one store — both lists
  are the witness the symbolic run finds.
-/
import proofs.«155679_j38474317038467_1_alg».proof.Proof.K.RunMid

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRunLast (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : condLast i)
    (x0 x1 x2 x3 : Vec F S32x512 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, ?_, fun E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Frame

end
-- ==== Proof.K.Data.lean ====
/-
  The pipeline's proof data for the kernel, at any float instance.

  After the body at point `n` the 1 × 1 scratch holds the running sum of the partial sums of points `0 … n` and, at
  the last point, the result's buffer holds that total divided by 256. Both are defined here by recursion on the point,
  over the pieces the three runs found: the first point starts from a scratch holding anything (it zeroes it), every
  later point from what the point before left. The invariant carried from point to point is "the scratch holds what the
  point before left"; the four input windows only ever hold their blocks; the result's window is idle except at the last
  point, where alone it is written back. Two windows read each argument array, so each holds half of it.
-/
import proofs.«155679_j38474317038467_1_alg».proof.Proof.K.RunLast

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the scratch and in the result's buffer -/

/-- The first point's two stores to the scratch (the zero, then the sum) each fill it: they cover it. -/
theorem scoverFirst (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : condFirst i) (hc2 : ¬condLast i) (x0 x1 x2 x3 : Vec F S32x512 .f32) (y : S1x1.Idx) :
    ∃ pc ∈ (kernelRunFirst c i arg2 harg2 arg3 harg3 arg4 harg4 arg5 harg5 arg6 harg6 arg7 harg7 hc1 hc2 x0 x1 x2 x3).1, y ∈ pc.1.set :=
  View.cover_of_tiledL (kernelRunFirst c i arg2 harg2 arg3 harg3 arg4 harg4 arg5 harg5 arg6 harg6 arg7 harg7 hc1 hc2 x0 x1 x2 x3).1 S1x1.size (by sl_kernel_rfl) y

/-- What the first point leaves in the scratch: its pieces read back. -/
def soutFirst (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : condFirst i) (hc2 : ¬condLast i) (x0 x1 x2 x3 : Vec F S32x512 .f32) : Vec F S1x1 .f32 :=
  VS.read (Elt F) (VS.writes (Elt F) VS.junk (kernelRunFirst c i arg2 harg2 arg3 harg3 arg4 harg4 arg5 harg5 arg6 harg6 arg7 harg7 hc1 hc2 x0 x1 x2 x3).1)

/-- A middle point's one store to the scratch fills it. -/
theorem scoverMid (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : ¬condLast i) (x0 x1 x2 x3 : Vec F S32x512 .f32) (xs : Vec F S1x1 .f32) (y : S1x1.Idx) :
    ∃ pc ∈ (kernelRunMid c i arg2 harg2 arg3 harg3 arg4 harg4 arg5 harg5 arg6 harg6 arg7 harg7 hc1 hc2 x0 x1 x2 x3 xs).1, y ∈ pc.1.set :=
  View.cover_of_tiledL (kernelRunMid c i arg2 harg2 arg3 harg3 arg4 harg4 arg5 harg5 arg6 harg6 arg7 harg7 hc1 hc2 x0 x1 x2 x3 xs).1 S1x1.size (by sl_kernel_rfl) y

/-- What a middle point leaves in the scratch, having found `xs` there. -/
def soutMid (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : ¬condLast i) (x0 x1 x2 x3 : Vec F S32x512 .f32) (xs : Vec F S1x1 .f32) : Vec F S1x1 .f32 :=
  VS.read (Elt F) (VS.writes (Elt F) VS.junk (kernelRunMid c i arg2 harg2 arg3 harg3 arg4 harg4 arg5 harg5 arg6 harg6 arg7 harg7 hc1 hc2 x0 x1 x2 x3 xs).1)

/-- The last point's one store to the scratch fills it, -/
theorem scoverLast (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : condLast i) (x0 x1 x2 x3 : Vec F S32x512 .f32) (xs : Vec F S1x1 .f32) (y : S1x1.Idx) :
    ∃ pc ∈ (kernelRunLast c i arg2 harg2 arg3 harg3 arg4 harg4 arg5 harg5 arg6 harg6 arg7 harg7 hc1 hc2 x0 x1 x2 x3 xs).2.1, y ∈ pc.1.set :=
  View.cover_of_tiledL (kernelRunLast c i arg2 harg2 arg3 harg3 arg4 harg4 arg5 harg5 arg6 harg6 arg7 harg7 hc1 hc2 x0 x1 x2 x3 xs).2.1 S1x1.size (by sl_kernel_rfl) y

/-- and its one store to the result's buffer fills that. -/
theorem coverLast (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : condLast i) (x0 x1 x2 x3 : Vec F S32x512 .f32) (xs : Vec F S1x1 .f32) (y : S1x1.Idx) :
    ∃ pc ∈ (kernelRunLast c i arg2 harg2 arg3 harg3 arg4 harg4 arg5 harg5 arg6 harg6 arg7 harg7 hc1 hc2 x0 x1 x2 x3 xs).1, y ∈ pc.1.set :=
  View.cover_of_tiledL (kernelRunLast c i arg2 harg2 arg3 harg3 arg4 harg4 arg5 harg5 arg6 harg6 arg7 harg7 hc1 hc2 x0 x1 x2 x3 xs).1 S1x1.size (by sl_kernel_rfl) y

/-- What the last point leaves in the scratch, having found `xs` there, -/
def soutLast (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : condLast i) (x0 x1 x2 x3 : Vec F S32x512 .f32) (xs : Vec F S1x1 .f32) : Vec F S1x1 .f32 :=
  VS.read (Elt F) (VS.writes (Elt F) VS.junk (kernelRunLast c i arg2 harg2 arg3 harg3 arg4 harg4 arg5 harg5 arg6 harg6 arg7 harg7 hc1 hc2 x0 x1 x2 x3 xs).2.1)

/-- and in the result's buffer. -/
def outLast (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : condLast i) (x0 x1 x2 x3 : Vec F S32x512 .f32) (xs : Vec F S1x1 .f32) : Vec F S1x1 .f32 :=
  VO.read (Elt F) (VO.writes (Elt F) VO.junk (kernelRunLast c i arg2 harg2 arg3 harg3 arg4 harg4 arg5 harg5 arg6 harg6 arg7 harg7 hc1 hc2 x0 x1 x2 x3 xs).1)

/-- Away from the last point nothing is stored to the result's buffer, the window is idle and not written back: the
    value named for it there is a placeholder nothing reads. -/
def outIdle : Vec F S1x1 .f32 := VO.read (Elt F) VO.junk

/-! ## The conditions at a point, from its position -/

/-- No point after the first has both coordinates zero. -/
theorem notFirst_succ (n : ℕ) (hn : n + 1 < cfg0.N) : ¬condFirst (grid0.coords ⟨n + 1, hn⟩) := fun h => by
  have h' := (hcondFirst ⟨n + 1, hn⟩).mp h
  have hN : n + 1 < 64 := lt_of_lt_of_eq hn (show cfg0.N = 64 from N_0)
  dsimp only at h'; omega

/-- The first point is not the last. -/
theorem notLast_zero (hn : 0 < cfg0.N) : ¬condLast (grid0.coords ⟨0, hn⟩) := fun h => by
  have h' := (hcondLast ⟨0, hn⟩).mp h
  dsimp only at h'; omega

/-! ## What the scratch and the result's buffer hold after each point -/

/-- After the body at position `n`: (the result's buffer, the scratch). The first point runs from a scratch holding
    anything; each later point from what the point before left in the scratch; only the last point stores the result. -/
def outsAt (c : Dev nD) : (n : ℕ) → n < cfg0.N → Vec F S1x1 .f32 × Vec F S1x1 .f32
  | 0, hn => (outIdle, soutFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (notLast_zero hn) (iblk m c 0 ⟨0, hn⟩) (iblk m c 1 ⟨0, hn⟩) (iblk m c 2 ⟨0, hn⟩) (iblk m c 3 ⟨0, hn⟩))
  | n + 1, hn =>
    if h1 : (n + 1) % 64 = 63 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (notFirst_succ n hn) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       soutLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (notFirst_succ n hn) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
    else
      (outIdle, soutMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (notFirst_succ n hn) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

/-- At the first point. -/
theorem outsAt_First (c : Dev nD) (t : Fin cfg0.N) (h0 : t.val % 64 = 0) (h1 : ¬t.val % 64 = 63) :
    outsAt m c t.val t.isLt = (outIdle, soutFirst c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t)) := by
  obtain ⟨n, hn⟩ := t
  cases n with
  | zero => exact rfl
  | succ n => exact (by exfalso; have hN : n + 1 < 64 := lt_of_lt_of_eq hn (show cfg0.N = 64 from N_0); (try dsimp only at h0); omega)

/-- At a middle point: over what the point before left. -/
theorem outsAt_Mid (c : Dev nD) (t : Fin cfg0.N) (h0 : ¬t.val % 64 = 0) (h1 : ¬t.val % 64 = 63) :
    outsAt m c t.val t.isLt = (outIdle, soutMid c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point: over what the point before left. -/
theorem outsAt_Last (c : Dev nD) (t : Fin cfg0.N) (h0 : ¬t.val % 64 = 0) (h1 : t.val % 64 = 63) :
    outsAt m c t.val t.isLt = (outLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2,
      soutLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The invariant carried between points -/

/-- Before position `n`: at the start what the launch hands over (the scratch at anything); afterwards the scratch at
    what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body each input window's buffer at its block, the result's at
    `outsAt`'s first component; the invariant `PhiS`; nothing owed; windows 0 and 2 read one argument array and
    windows 1 and 3 the other, so each holds half of its array, and the result's window holds all of its own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem q_eq (c : Dev nD) : (dats m 0 c).q = fun w => match w with
    | ⟨0, _⟩ => fullShare.left
    | ⟨1, _⟩ => fullShare.left
    | ⟨2, _⟩ => fullShare.right
    | ⟨3, _⟩ => fullShare.right
    | ⟨4, _⟩ => fullShare := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- An input window's buffer holds its block whenever the body runs. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- The input windows are never idle: after the body each buffer holds its block. -/
theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveAt0 t], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveAt1 t], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveAt2 t], after2]
theorem leaves3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [liveAt3 t], after3]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the point's position says which of the three cases it
    is in, and that case's run applies: the invariant hands it the scratch (at anything at the first point, else at what
    the point before left) and takes it back at this point's contents, the pieces covering it; the result's buffer comes
    back untouched except at the last point, where the pieces stored cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t]
  have hN : t.val < 64 := lt_of_lt_of_eq t.isLt (show cfg0.N = 64 from N_0)
  by_cases h0 : t.val % 64 = 0
  · have hz : t.val = 0 := by omega
    have h1 : ¬t.val % 64 = 63 := by omega
    rw [Dat.leavesExact_idle (dats m 0 c) 4 t (idleAt4 t (fun h => h1 ((hcondLast t).mp h))) (noFlush4 t (fun h => h1 ((hcondLast t).mp h)))]
    rw [outsAt_First m c t h0 h1]
    unfold soutFirst; (try dsimp only)
    rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩⟩
    iapply ((kernelRunFirst c (grid0.coords t) _ _ _ _ _ _ _ _ _ _ _ _ ((hcondFirst t).mpr h0) (fun h => h1 ((hcondLast t).mp h)) (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (scoverFirst c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 64 = 63
    · rw [show (dats m 0 c).leavesExact 4 t = owns (c : Thread nD τ) (ms4 t) fullShare ((dats m 0 c).after 4 t) from by
        unfold Dat.leavesExact; rw [liveAt4 t ((hcondLast t).mpr h1)], after4]
      rw [outsAt_Last m c t h0 h1]
      unfold outLast soutLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((kernelRunLast c (grid0.coords t) _ _ _ _ _ _ _ _ _ _ _ _ (fun h => h0 ((hcondFirst t).mp h)) ((hcondLast t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (scoverLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast c _ _ _ _ _ _ _ _ _ _ _ _ _ _ _ _ _ _ _ _)
    · rw [Dat.leavesExact_idle (dats m 0 c) 4 t (idleAt4 t (fun h => h1 ((hcondLast t).mp h))) (noFlush4 t (fun h => h1 ((hcondLast t).mp h)))]
      rw [outsAt_Mid m c t h0 h1]
      unfold soutMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((kernelRunMid c (grid0.coords t) _ _ _ _ _ _ _ _ _ _ _ _ (fun h => h0 ((hcondFirst t).mp h)) (fun h => h1 ((hcondLast t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (scoverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back: what the scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

/-- In particular after the last. -/
theorem hout (c : Dev nD) : (dats m 0 c).Φ (Fin.last cfg0.N) ⊢ Pipeline.ΦA spec0 c :=
  Phi_out m c _ (by rw [Fin.val_last]; have : cfg0.N = 64 := N_0; omega)

end Cert.Kernel.Frame

end
-- ==== Proof.Spec.lean ====
/-
  The mathematics of the certificate, with no program in sight.

  For two 256 × 512 arrays `μ` (means) and `λ` (log-variances) of extended reals, the quantity both programs compute is

      G μ λ = ( Σ_{i ≠ j}  ½ · Σ_d [ (λ_jd − λ_id) + e^{λ_id} / e^{λ_jd} + (μ_id − μ_jd)² / e^{λ_jd} − 1 ] ) / 256 ,

  the sum of the pairwise Kullback–Leibler divergences between the 256 diagonal Gaussians, the diagonal left out, over
  the batch size. The reference divides by `e^{λ_jd}` (`termQ`); the kernel multiplies by `e^{0 − λ_jd}` (`termP`): for a
  REAL `λ_jd` these agree, because `e^{−x} = 1 / e^{x}` and a quotient by a nonzero real is the product with its
  reciprocal on every extended real. The kernel also visits the pairs tile by tile, 32 × 32 at a time over an 8 × 8 grid:
  that is a regrouping of a sum in a commutative monoid.
-/
import Idealize.ShloMosaic.PureOps.Ideal
import Idealize.ShloMosaic.Lib.ValueIdx

noncomputable section

open scoped BigOperators

namespace Cert.PairKL

open Idealize.ShloMosaic Idealize.ShloMosaic.ValueIdx

/-- A 256 × 512 array of extended reals. -/
abbrev Arr : Type := (⟨2, ![256, 512]⟩ : Shape).Idx → EReal

/-- The float literals of the two programs, as the extended reals their words denote: 1, 0, ½ and 256. -/
def one : EReal := Ideal.ofBits .f32 0x3F800000#32
def zero : EReal := Ideal.ofBits .f32 0x00000000#32
def half : EReal := Ideal.ofBits .f32 0x3F000000#32
def n256 : EReal := Ideal.ofBits .f32 0x43800000#32

/-- One summand, with quotients by the second variance. -/
def termQ (mi li mj lj : EReal) : EReal :=
  (((lj - li) + Ideal.div (Ideal.exp li) (Ideal.exp lj)) + Ideal.div ((mi - mj) * (mi - mj)) (Ideal.exp lj)) - one

/-- The same summand, with products by `e^{0 − λ_j}` in place of the quotients. -/
def termP (mi li mj lj : EReal) : EReal :=
  (((lj - li) + Ideal.exp li * Ideal.exp (zero - lj)) + ((mi - mj) * (mi - mj)) * Ideal.exp (zero - lj)) - one

/-- Half the sum over the 512 coordinates of the summand for the pair of rows `(i, j)`. -/
def kl (term : EReal → EReal → EReal → EReal → EReal) (mu lv : Arr) (i j : Fin 256) : EReal :=
  half * ∑ d : Fin 512, term (mu (ix2 i d)) (lv (ix2 i d)) (mu (ix2 j d)) (lv (ix2 j d))

/-- 0 on the diagonal, 1 off it. -/
def offDiag (i j : Fin 256) : EReal := if i = j then 0 else 1

/-- The sum over all ordered pairs, the diagonal masked out. -/
def total (term : EReal → EReal → EReal → EReal → EReal) (mu lv : Arr) : EReal :=
  ∑ i : Fin 256, ∑ j : Fin 256, kl term mu lv i j * offDiag i j

/-- The result of both programs. -/
def G (mu lv : Arr) : EReal := Ideal.div (total termQ mu lv) n256

/-- Row `a` of the row-tile, and column `b` of the column-tile, of grid point `t = 8·i + j`. -/
def rowOf (t : Fin 64) (a : Fin 32) : Fin 256 := ⟨32 * (t.val / 8) + a.val, by have := t.isLt; have := a.isLt; omega⟩
def colOf (t : Fin 64) (b : Fin 32) : Fin 256 := ⟨32 * (t.val % 8) + b.val, by have := t.isLt; have := b.isLt; omega⟩

end Cert.PairKL

end
-- ==== Proof.K.Blocks.lean ====
/-
  The four staged blocks of the two argument arrays, read at an index, and the result array after the run.

  Grid point t = 8·i + j. Windows 0 and 1 stage the 32 rows of row tile i of the two arrays, windows 2 and 3 the 32 rows
  of row tile j of the same two arrays; all 512 columns each time. A block's coordinate along an axis is ALWAYS
  (block index) × (block extent) + (coordinate inside the block), so row a of window 0's block at point t is row
  32·(t / 8) + a of the array, and row b of window 2's block is row 32·(t % 8) + b; the column is unchanged because the
  block index along the columns is 0 and the block spans all of them. The block indices are decided once over the 64
  points.

  The result is a 1 × 1 array whose only block is the whole array. It is written back exactly once, after point 63, so
  after the run it holds what the body left in the staging buffer at point 63.
-/
import proofs.«155679_j38474317038467_1_alg».proof.Proof.K.Base
import proofs.«155679_j38474317038467_1_alg».proof.Proof.Spec
import Idealize.ShloMosaic.Lib.Pipeline.Value
import Idealize.ShloMosaic.Lib.ValueIdx

set_option maxRecDepth 16384

noncomputable section

namespace Cert.Kernel.Frame

open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staged blocks, read at an index -/

/-- Windows 0 and 1: the block index along the rows is the first grid coordinate t / 8, along the columns 0. -/
theorem rowTile_index : ∀ t : Fin cfg0.N,
    (win0_0.index t (0 : Fin 2) = t.val / 8 ∧ win0_0.index t (1 : Fin 2) = 0) ∧
    (win0_1.index t (0 : Fin 2) = t.val / 8 ∧ win0_1.index t (1 : Fin 2) = 0) :=
  (by decide +kernel : ∀ t : Fin grid0.N,
    (win0_0.index t (0 : Fin 2) = t.val / 8 ∧ win0_0.index t (1 : Fin 2) = 0) ∧
    (win0_1.index t (0 : Fin 2) = t.val / 8 ∧ win0_1.index t (1 : Fin 2) = 0))

/-- Windows 2 and 3: the block index along the rows is the second grid coordinate t % 8, along the columns 0. -/
theorem colTile_index : ∀ t : Fin cfg0.N,
    (win0_2.index t (0 : Fin 2) = t.val % 8 ∧ win0_2.index t (1 : Fin 2) = 0) ∧
    (win0_3.index t (0 : Fin 2) = t.val % 8 ∧ win0_3.index t (1 : Fin 2) = 0) :=
  (by decide +kernel : ∀ t : Fin grid0.N,
    (win0_2.index t (0 : Fin 2) = t.val % 8 ∧ win0_2.index t (1 : Fin 2) = 0) ∧
    (win0_3.index t (0 : Fin 2) = t.val % 8 ∧ win0_3.index t (1 : Fin 2) = 0))

/-- Row a of window 0's block at point t is row 32·(t / 8) + a of the first argument array. -/
theorem iblk0_apply (c : Dev nD) (t : Fin cfg0.N) (a : Fin 32) (d : Fin 512) :
    (iblk m c 0 t : Vec F S32x512 .f32) (ix2 a d) = V m c main_arg0 (ix2 (Cert.PairKL.rowOf (t.cast N_0) a) d) := by
  have hi := (rowTile_index t).1
  unfold iblk
  rw [View.read_apply]
  show V m c main_arg0 _ = V m c main_arg0 _
  congr 1
  funext ax
  apply Fin.ext
  match ax with
  | ⟨0, _⟩ =>
    show win0_0.index t 0 * 32 + 1 * (a : Nat) = 32 * ((t : Nat) / 8) + (a : Nat)
    rw [hi.1]; omega
  | ⟨1, _⟩ =>
    show win0_0.index t 1 * 512 + 1 * (d : Nat) = (d : Nat)
    rw [hi.2]; omega

/-- The same rows of the second argument array. -/
theorem iblk1_apply (c : Dev nD) (t : Fin cfg0.N) (a : Fin 32) (d : Fin 512) :
    (iblk m c 1 t : Vec F S32x512 .f32) (ix2 a d) = V m c main_arg1 (ix2 (Cert.PairKL.rowOf (t.cast N_0) a) d) := by
  have hi := (rowTile_index t).2
  unfold iblk
  rw [View.read_apply]
  show V m c main_arg1 _ = V m c main_arg1 _
  congr 1
  funext ax
  apply Fin.ext
  match ax with
  | ⟨0, _⟩ =>
    show win0_1.index t 0 * 32 + 1 * (a : Nat) = 32 * ((t : Nat) / 8) + (a : Nat)
    rw [hi.1]; omega
  | ⟨1, _⟩ =>
    show win0_1.index t 1 * 512 + 1 * (d : Nat) = (d : Nat)
    rw [hi.2]; omega

/-- Row b of window 2's block at point t is row 32·(t % 8) + b of the first argument array. -/
theorem iblk2_apply (c : Dev nD) (t : Fin cfg0.N) (b : Fin 32) (d : Fin 512) :
    (iblk m c 2 t : Vec F S32x512 .f32) (ix2 b d) = V m c main_arg0 (ix2 (Cert.PairKL.colOf (t.cast N_0) b) d) := by
  have hi := (colTile_index t).1
  unfold iblk
  rw [View.read_apply]
  show V m c main_arg0 _ = V m c main_arg0 _
  congr 1
  funext ax
  apply Fin.ext
  match ax with
  | ⟨0, _⟩ =>
    show win0_2.index t 0 * 32 + 1 * (b : Nat) = 32 * ((t : Nat) % 8) + (b : Nat)
    rw [hi.1]; omega
  | ⟨1, _⟩ =>
    show win0_2.index t 1 * 512 + 1 * (d : Nat) = (d : Nat)
    rw [hi.2]; omega

/-- The same rows of the second argument array. -/
theorem iblk3_apply (c : Dev nD) (t : Fin cfg0.N) (b : Fin 32) (d : Fin 512) :
    (iblk m c 3 t : Vec F S32x512 .f32) (ix2 b d) = V m c main_arg1 (ix2 (Cert.PairKL.colOf (t.cast N_0) b) d) := by
  have hi := (colTile_index t).2
  unfold iblk
  rw [View.read_apply]
  show V m c main_arg1 _ = V m c main_arg1 _
  congr 1
  funext ax
  apply Fin.ext
  match ax with
  | ⟨0, _⟩ =>
    show win0_3.index t 0 * 32 + 1 * (b : Nat) = 32 * ((t : Nat) % 8) + (b : Nat)
    rw [hi.1]; omega
  | ⟨1, _⟩ =>
    show win0_3.index t 1 * 512 + 1 * (d : Nat) = (d : Nat)
    rw [hi.2]; omega

/-! ## The result array after the run -/

/-- The result's window has one block, at block index (0, 0), at every point. -/
theorem resultTile_index : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The result array after all 64 points is what the body left in the result's staging buffer at point 63: only that
    point's write-back happens, its block at index (0, 0) with extent 1 × 1 is the whole array (so the write-back's
    payload, read through the block, is the buffer's contents themselves), and that one block covers the one index. -/
theorem arrAt4_final {c : Dev nD} (dat : Dat τ (Elt F) Unit ℕ (UR sig nD τ) ℕ cfg0 c) (h63 : 63 < cfg0.N) :
    (dat.arrAt 4 cfg0.N : Vec F S1x1 .f32) = (dat.after 4 ⟨63, h63⟩ : Vec F S1x1 .f32) := by
  have hN : cfg0.N = 64 := N_0
  have hz : ∀ t : Fin cfg0.N, (fun a => win0_4.index t a * main_v0.ty.shape.size a) = fun _ => 0 := fun t =>
    funext fun a => by
      match a with
      | ⟨0, _⟩ => show win0_4.index t 0 * _ = 0; rw [(resultTile_index t).1, Nat.zero_mul]
      | ⟨1, _⟩ => show win0_4.index t 1 * _ = 0; rw [(resultTile_index t).2, Nat.zero_mul]
  refine dat.arrAt_eq_of_cover 4 (dat.after 4 ⟨63, h63⟩) (fun t hf => ?_) (fun i => ?_)
  · have h1 : t.val = 63 := by have := (flush0_4 t).mp hf; have := t.isLt; omega
    obtain rfl : t = ⟨63, h63⟩ := Fin.ext h1
    show (cfg0.win 4).cut (grid0.coords ⟨63, h63⟩) (dat.after 4 ⟨63, h63⟩) = _
    exact (Memref.read_access_unit_zero (Elt F) main_v0 (hz ⟨63, h63⟩)
      (fun a => by rw [congrFun (hz ⟨63, h63⟩) a]; simp) (dat.after 4 ⟨63, h63⟩)).symm
  · refine ⟨⟨63, h63⟩, (flush0_4 _).mpr rfl, ?_⟩
    show i ∈ ((View.whole main_v0).slice (win0_4.rect ⟨63, h63⟩)).set
    rw [View.set_slice_whole]
    exact View.mem_set_unit_zero (hz ⟨63, h63⟩) (fun a => by rw [congrFun (hz ⟨63, h63⟩) a]; simp) i

end Cert.Kernel.Frame

end
-- ==== Proof.K.Final.lean ====
/-
  The run of `Kernel` at its proof data, and what it leaves: the two argument arrays as they were (windows 0
  and 1 only read them: the pipeline library's arrays of input windows are their entry contents), and the scalar
  result the one element the body stored into the result window at the last grid point (the result array is written
  back exactly once, after that point).
-/
import proofs.«155679_j38474317038467_1_alg».proof.Proof.K.Launch
import proofs.«155679_j38474317038467_1_alg».proof.Proof.K.Data
import proofs.«155679_j38474317038467_1_alg».proof.Proof.K.Blocks

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates; each window's array ends at what the pipeline library computes
    from the proof data, and the scalar result is the reshape of the result array. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ r.2.mem ((c.tc : Thread nD τ).loc main_v1) = scalarOf ((dats m 0 c).arrAt 4 cfg0.N)) :=
  run_main_of m ρ (dats m) (A_eq m) (q_eq m) (fun _ _ => rfl) (fun c => (body_obligation m c).loose) (hin m) (hout m)

/-- The run with its results named: the scalar result is the reshape of what the body left in the result window's
    buffer at the last point, and the argument arrays are unchanged. -/
theorem run_out (h63 : 63 < cfg0.N) : θ_run defs (onTc (τ := τ) (main (F := F))) ⟨m, fun _ => 0, ρ⟩ (fun r => ∀ c : Dev nD,
      r.2.mem ((c.tc : Thread nD τ).loc main_v1) = scalarOf (outsAt m c 63 h63).1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2.trans (congrArg scalarOf ((arrAt4_final (dats m 0 c) h63).trans (after4 m c ⟨63, h63⟩))),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

/-- THE FRAME: @main runs to its end, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_out m ρ (lt_of_lt_of_eq (by decide) N_0.symm))

end Cert.Kernel.Frame

end
-- ==== Proof.KI.Base.lean ====
/-
  What the per-case runs of the kernel body and the frame of `KernelIdeal` share, at any float instance `F`.

  The program is ONE pallas_call on an 8 × 8 grid, point `t = 8·i + j`, followed by one host reshape. Windows 0 and 1
  stage rows `32·i … 32·i+31` of the two argument arrays, windows 2 and 3 rows `32·j … 32·j+31` of the SAME two
  arrays; window 4 is the 1 × 1 result, written back once, after the last point; a 1 × 1 scratch carries the running
  sum from point to point. The body has two conditionals on the coordinates: the scratch is zeroed at `t = 0`, the
  result is stored at `t = 63`. So there are three kinds of point: the first, the last, and the 62 in between.
-/
import proofs.«155679_j38474317038467_1_alg».proof.Proof.Gen.KernelIdeal.Launch
import proofs.«155679_j38474317038467_1_alg».proof.Proof.Gen.KernelIdeal.Skeleton
import proofs.«155679_j38474317038467_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_v0 (c : Dev nD) : V m c main_v0 = m ((c : Thread nD τ).loc main_v0) := rfl
theorem V_main_v1 (c : Dev nD) : V m c main_v1 = m ((c : Thread nD τ).loc main_v1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block
    index has not moved and the body left the block in place), for any proof data whose array is the entry contents. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- "Zero the scratch": both coordinates are zero (the body's scalar chain, substituted). -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcondFirst : ∀ t : Fin cfg0.N, condFirst (grid0.coords t) ↔ t.val % 64 = 0 :=
  (by decide +kernel : ∀ t : Fin grid0.N, condFirst (grid0.coords t) ↔ t.val % 64 = 0)

/-- "Store the result": both coordinates are 7. -/
abbrev condLast (i : grid0.Coords) : Prop := k0_cond2 i = 1#1
/-- It holds at the last point only. -/
theorem hcondLast : ∀ t : Fin cfg0.N, condLast (grid0.coords t) ↔ t.val % 64 = 63 :=
  (by decide +kernel : ∀ t : Fin grid0.N, condLast (grid0.coords t) ↔ t.val % 64 = 63)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last point the body stores nothing into the result's buffer, -/
theorem idleAt4 : ∀ t : Fin cfg0.N, ¬condLast (grid0.coords t) → cfg0.idle 4 (grid0.coords t) = true := by decide +kernel
/-- and the pipeline does not write it back there; -/
theorem noFlush4 : ∀ t : Fin cfg0.N, ¬condLast (grid0.coords t) → (cfg0.win 4).flush t = false := by decide +kernel
/-- at the last point it does store. -/
theorem liveAt4 : ∀ t : Fin cfg0.N, condLast (grid0.coords t) → cfg0.idle 4 (grid0.coords t) = false := by decide +kernel

/-! ## The staging and scratch memrefs the body is called with -/

abbrev ms0 (t : Fin cfg0.N) : Memref sig .tc .vmem S32x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch: a whole scoped buffer of the kernel's own. -/
abbrev scM : Memref sig .tc .vmem S1x1 .f32 := Memref.whole cc0_scratch0
/-- The scratch and the result's staging buffer as views, through which their contents are stated. -/
abbrev VS : View sig .tc .vmem S1x1 .f32 := scM.view
abbrev VO : View sig .tc .vmem S1x1 .f32 := (Memref.whole cc0_stg4_0 : Memref sig .tc .vmem S1x1 .f32).view

/-- The class invariant (the scoped buffers no window stages at some contents, the generator register at some state)
    with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Frame

end
-- ==== Proof.KI.Launch.lean ====
/-
  The launch of `KernelIdeal`'s one region when two windows read each argument array.

  The pipeline holds each window's array at a share. Windows 0 and 2 read `main_arg0`, windows 1 and 3 read
  `main_arg1`: the left half of each array's full share goes to the first window on it and the right half to the
  second; window 4 holds the result array `main_v0` outright. At the region's entry the three buffers behind the five
  windows, each whole at the full share, are split that way; after the region the one host line (a reshape of the
  1 × 1 result to a scalar) reads `main_v0` out of the windows' arrays, writes `main_v1`, and hands the arrays back
  as they were.
-/
import proofs.«155679_j38474317038467_1_alg».proof.Proof.KI.Base

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares at which the five windows hold their arrays. -/
abbrev halves : Fin cfg0.W → PosShare TreeShare := fun w => match w with
  | ⟨0, _⟩ => fullShare.left | ⟨1, _⟩ => fullShare.left | ⟨2, _⟩ => fullShare.right | ⟨3, _⟩ => fullShare.right | ⟨4, _⟩ => fullShare

/-- What the host line after the region leaves in the scalar result: the 1 × 1 array's one element. -/
def scalarOf (A4 : Vec F S1x1 .f32) : Vec F S_ .f32 := fun i => shapeCast S_ A4 shapeCasts_S1x1_S_ i

variable (dats : (p : Fin 1) → (c : Dev nD) → Dat τ (Elt F) Unit ℕ (UR sig nD τ) ℕ (cfgs p) c)

theorem img_eq : (Finset.univ.image (Pipeline.arrRef spec0) : Finset (Ref sig .tc)) = [main_arg0, main_arg1, main_v0].toFinset := by decide

/-- The buffers behind the five windows are three. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_v0) ↦{fullShare} W main_v0)) := by
  unfold Pipeline.arrBufs
  exact bigSep_eq_bigSepL_of_eq [main_arg0, main_arg1, main_v0] img_eq (by decide) _

/-- The five windows' arrays at contents `A`, window by window: whole buffers, the first window on each argument
    array at the left half of the full share, the second at the right half, the result array outright. -/
theorem arrays_eq5 (hq : ∀ c, (dats 0 c).q = halves) (c : Dev nD) (A : (w : Fin cfg0.W) → Buf (Elt F) ((cfg0.win w).arr.view.loc (c.tc : Thread nD τ))) :
    ((dats 0 c).arrays A : sProp 𝕄)
      = iprop((((c.tc : Thread nD τ).loc main_arg0) ↦{fullShare.left} A 0) ∗ (((c.tc : Thread nD τ).loc main_arg1) ↦{fullShare.left} A 1)
          ∗ (((c.tc : Thread nD τ).loc main_arg0) ↦{fullShare.right} A 2) ∗ (((c.tc : Thread nD τ).loc main_arg1) ↦{fullShare.right} A 3)
          ∗ (((c.tc : Thread nD τ).loc main_v0) ↦{fullShare} A 4)) := by
  have hs0 : (dats 0 c).share 0 = fullShare.left := by unfold Dat.share; rw [hq c]; rfl
  have hs1 : (dats 0 c).share 1 = fullShare.left := by unfold Dat.share; rw [hq c]; rfl
  have hs2 : (dats 0 c).share 2 = fullShare.right := by unfold Dat.share; rw [hq c]; rfl
  have hs3 : (dats 0 c).share 3 = fullShare.right := by unfold Dat.share; rw [hq c]; rfl
  have hs4 : (dats 0 c).share 4 = fullShare := by unfold Dat.share; rfl
  have hw0 : ((cfgs 0).win 0).arr.view.set = Finset.univ := (arr_whole0 0).set_eq_univ
  have hw1 : ((cfgs 0).win 1).arr.view.set = Finset.univ := (arr_whole0 1).set_eq_univ
  have hw4 : ((cfgs 0).win 4).arr.view.set = Finset.univ := (arr_whole0 4).set_eq_univ
  unfold Dat.arrays
  rw [bigSep_W0, hs0, hs1, hs2, hs3, hs4, hw0, hw1, hw4]

theorem arrays_of_bufs (hA : ∀ c w, (dats 0 c).A w = V m c (Pipeline.arrRef spec0 w)) (hq : ∀ c, (dats 0 c).q = halves) (c : Dev nD) :
    (Pipeline.arrBufs (Ix := Unit) (Name := ℕ) (U := UR sig nD τ) (Lvl := ℕ) spec0 c (V m c) : sProp 𝕄)
      ⊢ (dats 0 c).arrays ((dats 0 c).arrAt · 0) := by
  have ha0 : (dats 0 c).arrAt 0 0 = V m c main_arg0 := hA c 0
  have ha1 : (dats 0 c).arrAt 1 0 = V m c main_arg1 := hA c 1
  have ha2 : (dats 0 c).arrAt 2 0 = V m c main_arg0 := hA c 2
  have ha3 : (dats 0 c).arrAt 3 0 = V m c main_arg1 := hA c 3
  have ha4 : (dats 0 c).arrAt 4 0 = V m c main_v0 := hA c 4
  rw [arrBufs_eq, arrays_eq5 dats hq c]
  beta_reduce
  rw [ha0, ha1, ha2, ha3, ha4]
  iintro ⟨H0, H1, H4⟩
  ihave H0' := (pointsTo_share (PosShare.mem_left_op_right fullShare)).1 $$ H0
  ihave H1' := (pointsTo_share (PosShare.mem_left_op_right fullShare)).1 $$ H1
  icases H0' with ⟨H0l, H0r⟩
  icases H1' with ⟨H1l, H1r⟩
  isplitl [H0l]; · iexact H0l
  isplitl [H1l]; · iexact H1l
  isplitl [H0r]; · iexact H0r
  isplitl [H1r]; · iexact H1r
  iexact H4

set_option backward.isDefEq.respectTransparency.types false in
/-- AFTER THE REGION: the reshape reads the result array out of the windows' arrays, writes the scalar result, and
    hands the arrays back as they were. -/
theorem tail_reshape (hq : ∀ c, (dats 0 c).q = halves) (c : Dev nD)
    (A : (w : Fin cfg0.W) → Buf (Elt F) ((cfg0.win w).arr.view.loc (c.tc : Thread nD τ))) (Q' : PUnit → sProp 𝕄) :
    iprop((iprop((dats 0 c).arrays A ∗ (((c.tc : Thread nD τ).loc main_v1) ↦{fullShare} scalarOf (A 4))) -∗ Q' ⟨⟩)
        ∗ boundary (c.tc : Thread nD τ) ∗ (dats 0 c).arrays A
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ
          (Pipeline.chain [StableHlo.seq hostOps1]) Q' := by
  classical
  rw [arrays_eq5 dats hq c A, Pipeline.unscopedRestP_none, unscopedRest0_eq]
  simp only [Pipeline.chain_cons, Pipeline.chain_nil]
  iintro ⟨Hk, Hb, ⟨H0, H1, H2, H3, H4⟩, Hv1⟩
  -- the two buffers the line touches, and the contents it starts from
  let S : Finset (DevRef τ sig) := {Proc.devRef .tc main_v0, Proc.devRef .tc main_v1}
  let W : Valuation τ sig (Elt F) := Function.update (V0 m c) (Proc.devRef .tc main_v0) (A 4)
  have hne : (Proc.devRef (τ := τ) .tc main_v0) ≠ Proc.devRef .tc main_v1 := StableHlo.devRef_ne_of_ne (by decide)
  have hW0 : W (Proc.devRef .tc main_v0) = A 4 := Function.update_self ..
  have hW1 : W (Proc.devRef .tc main_v1) = V m c main_v1 := Function.update_of_ne hne.symm ..
  have hheld : ∀ W' : Valuation τ sig (Elt F), (StableHlo.held (c.tc : Thread nD τ) S W' : sProp 𝕄)
      = iprop((((c.tc : Thread nD τ).loc main_v0) ↦{fullShare} W' (Proc.devRef .tc main_v0)) ∗ (((c.tc : Thread nD τ).loc main_v1) ↦{fullShare} W' (Proc.devRef .tc main_v1))) := fun W' => by
    unfold StableHlo.held
    rw [bigSep_insert (by rw [Finset.mem_singleton]; exact hne), bigSep_singleton]
    rfl
  have hS : ∀ op ∈ (hostOps1 : List (HloOp τ sig (Elt F))), op.bufs ⊆ S := fun op hop => by
    simp only [hostOps1, List.mem_singleton] at hop
    subst hop
    exact subset_refl _
  iapply (StableHlo.wp_seq (Variants.lift Variants.none) none Set.univ c S _ hostOps1 hS
    (fun op h => (List.forall_iff_forall_mem.mp hostOps1_fresh) op h) W) $$ [Hb H4 Hv1]
  · isplitl [Hb]; · iexact Hb
    rw [hheld, hW0, hW1]
    isplitl [H4] <;> iassumption
  have ha0 : StableHlo.after hostOps1 W (Proc.devRef .tc main_v0) = A 4 := by
    show (StableHlo.reshape main_v0 main_v1 rfl shapeCasts_S1x1_S_ : HloOp τ sig (Elt F)).result W (Proc.devRef .tc main_v0) = _
    rw [StableHlo.reshape_result_ne _ _ _ _ _ _ W (by decide : main_v0 ≠ main_v1), hW0]
  have ha1 : StableHlo.after hostOps1 W (Proc.devRef .tc main_v1) = scalarOf (A 4) := by
    show (StableHlo.reshape main_v0 main_v1 rfl shapeCasts_S1x1_S_ : HloOp τ sig (Elt F)).result W (Proc.devRef .tc main_v1) = _
    rw [StableHlo.reshape_result, hW0]
    rfl
  have hfin : (StableHlo.held (c.tc : Thread nD τ) S (StableHlo.after hostOps1 W) : sProp 𝕄)
      = iprop((((c.tc : Thread nD τ).loc main_v0) ↦{fullShare} A 4) ∗ (((c.tc : Thread nD τ).loc main_v1) ↦{fullShare} scalarOf (A 4))) := by
    rw [hheld, ha0, ha1]
  iintro ⟨Hb, Hh⟩
  ihave Hh' := (Entails.of_eq hfin) $$ Hh
  icases Hh' with ⟨H4, Hv1⟩
  rw [wp_pure]
  imodintro
  iapply Hk
  isplitr [Hv1]
  · isplitl [H0]; · iexact H0
    isplitl [H1]; · iexact H1
    isplitl [H2]; · iexact H2
    isplitl [H3]; · iexact H3
    iexact H4
  · iexact Hv1

set_option backward.isDefEq.respectTransparency.types false in
/-- THE RUN: every weakly fair execution of @main terminates; every window's array then holds what the pipeline
    library computes from the proof data, and the scalar result the reshape of the result array. -/
theorem run_main_of
    (hA : ∀ c w, (dats 0 c).A w = V m c (Pipeline.arrRef spec0 w)) (hq : ∀ c, (dats 0 c).q = halves)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ r.2.mem ((c.tc : Thread nD τ).loc main_v1) = scalarOf ((dats 0 c).arrAt 4 cfg0.N)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := arrays_of_bufs m dats hA hq)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => iprop(((c.tc : Thread nD τ).loc main_v1) ↦{fullShare} scalarOf ((dats 0 c).arrAt 4 cfg0.N)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_reshape m dats hq c _ Q')
    (QY := fun c s => s.mem ((c.tc : Thread nD τ).loc main_v1) = scalarOf ((dats 0 c).arrAt 4 cfg0.N))
    (hY := fun c s' => by
      iintro ⟨-, HZ, HSI⟩
      imodintro
      icombine HSI HZ gives %h
      isplitr; · ipureintro; exact Buf.eq_of_forall_mem_univ h
      iexact HSI)
    (hQ := fun s h c => ⟨(h c).1, (h c).2.2⟩)

end Cert.KernelIdeal.Frame

end
-- ==== Proof.KI.RunFirst.lean ====
/-
  The kernel body at the grid's FIRST point (both coordinates zero): the scratch is zeroed, the four input blocks are
  loaded, the point's partial sum is added to the (just zeroed) scratch and stored back; nothing is stored to the
  result's buffer. Stated on any whole memrefs: the inputs at their blocks and the result's buffer at whatever it holds
  are handed back as they came; the scratch, found at anything, is left with the list of pieces the two stores wrote
  (last first), which is the witness the symbolic run finds.
-/
import proofs.«155679_j38474317038467_1_alg».proof.Proof.KI.Base

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when the first condition holds and the second does not: the pieces the scratch ends with, and the
    triple. -/
noncomputable def kernelRunFirst (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : condFirst i) (hc2 : ¬condLast i)
    (x0 x1 x2 x3 : Vec F S32x512 .f32) :
    { LS : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, fun xi4 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Frame

end
-- ==== Proof.KI.RunMid.lean ====
/-
  The kernel body at a point that is neither the first nor the last: the four input blocks are loaded, the point's
  partial sum is added to what the scratch holds (what the point before left there) and stored back; the scratch is not
  zeroed and nothing is stored to the result's buffer. On any whole memrefs: inputs and the result's buffer are handed
  back as they came; the scratch ends with the pieces of the one store, the witness the symbolic run finds.
-/
import proofs.«155679_j38474317038467_1_alg».proof.Proof.KI.RunFirst

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRunMid (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : ¬condLast i)
    (x0 x1 x2 x3 : Vec F S32x512 .f32) (xs : Vec F S1x1 .f32) :
    { LS : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4
                ∗ (∃ f, arg7.view.loc (c : Thread nD τ) ↦[arg7.view.set]{fullShare} arg7.view.writes (Elt F) f LS)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, fun xi4 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Frame

end
-- ==== Proof.KI.RunLast.lean ====
/-
  The kernel body at the grid's LAST point (both coordinates 7): the four input blocks are loaded, the point's partial
  sum is added to what the scratch holds and stored back; then the scratch is read again and that total divided by 256
  is stored to the result's buffer. On any whole memrefs: the inputs are handed back as they came; the scratch ends with
  the pieces of its one store and the result's buffer, found at anything, with the pieces of its one store — both lists
  are the witness the symbolic run finds.
-/
import proofs.«155679_j38474317038467_1_alg».proof.Proof.KI.RunMid

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRunLast (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : condLast i)
    (x0 x1 x2 x3 : Vec F S32x512 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, ?_, fun E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Frame

end
-- ==== Proof.KI.Data.lean ====
/-
  The pipeline's proof data for the kernel, at any float instance.

  After the body at point `n` the 1 × 1 scratch holds the running sum of the partial sums of points `0 … n` and, at
  the last point, the result's buffer holds that total divided by 256. Both are defined here by recursion on the point,
  over the pieces the three runs found: the first point starts from a scratch holding anything (it zeroes it), every
  later point from what the point before left. The invariant carried from point to point is "the scratch holds what the
  point before left"; the four input windows only ever hold their blocks; the result's window is idle except at the last
  point, where alone it is written back. Two windows read each argument array, so each holds half of it.
-/
import proofs.«155679_j38474317038467_1_alg».proof.Proof.KI.RunLast

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the scratch and in the result's buffer -/

/-- The first point's two stores to the scratch (the zero, then the sum) each fill it: they cover it. -/
theorem scoverFirst (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : condFirst i) (hc2 : ¬condLast i) (x0 x1 x2 x3 : Vec F S32x512 .f32) (y : S1x1.Idx) :
    ∃ pc ∈ (kernelRunFirst c i arg2 harg2 arg3 harg3 arg4 harg4 arg5 harg5 arg6 harg6 arg7 harg7 hc1 hc2 x0 x1 x2 x3).1, y ∈ pc.1.set :=
  View.cover_of_tiledL (kernelRunFirst c i arg2 harg2 arg3 harg3 arg4 harg4 arg5 harg5 arg6 harg6 arg7 harg7 hc1 hc2 x0 x1 x2 x3).1 S1x1.size (by sl_kernel_rfl) y

/-- What the first point leaves in the scratch: its pieces read back. -/
def soutFirst (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : condFirst i) (hc2 : ¬condLast i) (x0 x1 x2 x3 : Vec F S32x512 .f32) : Vec F S1x1 .f32 :=
  VS.read (Elt F) (VS.writes (Elt F) VS.junk (kernelRunFirst c i arg2 harg2 arg3 harg3 arg4 harg4 arg5 harg5 arg6 harg6 arg7 harg7 hc1 hc2 x0 x1 x2 x3).1)

/-- A middle point's one store to the scratch fills it. -/
theorem scoverMid (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : ¬condLast i) (x0 x1 x2 x3 : Vec F S32x512 .f32) (xs : Vec F S1x1 .f32) (y : S1x1.Idx) :
    ∃ pc ∈ (kernelRunMid c i arg2 harg2 arg3 harg3 arg4 harg4 arg5 harg5 arg6 harg6 arg7 harg7 hc1 hc2 x0 x1 x2 x3 xs).1, y ∈ pc.1.set :=
  View.cover_of_tiledL (kernelRunMid c i arg2 harg2 arg3 harg3 arg4 harg4 arg5 harg5 arg6 harg6 arg7 harg7 hc1 hc2 x0 x1 x2 x3 xs).1 S1x1.size (by sl_kernel_rfl) y

/-- What a middle point leaves in the scratch, having found `xs` there. -/
def soutMid (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : ¬condLast i) (x0 x1 x2 x3 : Vec F S32x512 .f32) (xs : Vec F S1x1 .f32) : Vec F S1x1 .f32 :=
  VS.read (Elt F) (VS.writes (Elt F) VS.junk (kernelRunMid c i arg2 harg2 arg3 harg3 arg4 harg4 arg5 harg5 arg6 harg6 arg7 harg7 hc1 hc2 x0 x1 x2 x3 xs).1)

/-- The last point's one store to the scratch fills it, -/
theorem scoverLast (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : condLast i) (x0 x1 x2 x3 : Vec F S32x512 .f32) (xs : Vec F S1x1 .f32) (y : S1x1.Idx) :
    ∃ pc ∈ (kernelRunLast c i arg2 harg2 arg3 harg3 arg4 harg4 arg5 harg5 arg6 harg6 arg7 harg7 hc1 hc2 x0 x1 x2 x3 xs).2.1, y ∈ pc.1.set :=
  View.cover_of_tiledL (kernelRunLast c i arg2 harg2 arg3 harg3 arg4 harg4 arg5 harg5 arg6 harg6 arg7 harg7 hc1 hc2 x0 x1 x2 x3 xs).2.1 S1x1.size (by sl_kernel_rfl) y

/-- and its one store to the result's buffer fills that. -/
theorem coverLast (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : condLast i) (x0 x1 x2 x3 : Vec F S32x512 .f32) (xs : Vec F S1x1 .f32) (y : S1x1.Idx) :
    ∃ pc ∈ (kernelRunLast c i arg2 harg2 arg3 harg3 arg4 harg4 arg5 harg5 arg6 harg6 arg7 harg7 hc1 hc2 x0 x1 x2 x3 xs).1, y ∈ pc.1.set :=
  View.cover_of_tiledL (kernelRunLast c i arg2 harg2 arg3 harg3 arg4 harg4 arg5 harg5 arg6 harg6 arg7 harg7 hc1 hc2 x0 x1 x2 x3 xs).1 S1x1.size (by sl_kernel_rfl) y

/-- What the last point leaves in the scratch, having found `xs` there, -/
def soutLast (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : condLast i) (x0 x1 x2 x3 : Vec F S32x512 .f32) (xs : Vec F S1x1 .f32) : Vec F S1x1 .f32 :=
  VS.read (Elt F) (VS.writes (Elt F) VS.junk (kernelRunLast c i arg2 harg2 arg3 harg3 arg4 harg4 arg5 harg5 arg6 harg6 arg7 harg7 hc1 hc2 x0 x1 x2 x3 xs).2.1)

/-- and in the result's buffer. -/
def outLast (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : condLast i) (x0 x1 x2 x3 : Vec F S32x512 .f32) (xs : Vec F S1x1 .f32) : Vec F S1x1 .f32 :=
  VO.read (Elt F) (VO.writes (Elt F) VO.junk (kernelRunLast c i arg2 harg2 arg3 harg3 arg4 harg4 arg5 harg5 arg6 harg6 arg7 harg7 hc1 hc2 x0 x1 x2 x3 xs).1)

/-- Away from the last point nothing is stored to the result's buffer, the window is idle and not written back: the
    value named for it there is a placeholder nothing reads. -/
def outIdle : Vec F S1x1 .f32 := VO.read (Elt F) VO.junk

/-! ## The conditions at a point, from its position -/

/-- No point after the first has both coordinates zero. -/
theorem notFirst_succ (n : ℕ) (hn : n + 1 < cfg0.N) : ¬condFirst (grid0.coords ⟨n + 1, hn⟩) := fun h => by
  have h' := (hcondFirst ⟨n + 1, hn⟩).mp h
  have hN : n + 1 < 64 := lt_of_lt_of_eq hn (show cfg0.N = 64 from N_0)
  dsimp only at h'; omega

/-- The first point is not the last. -/
theorem notLast_zero (hn : 0 < cfg0.N) : ¬condLast (grid0.coords ⟨0, hn⟩) := fun h => by
  have h' := (hcondLast ⟨0, hn⟩).mp h
  dsimp only at h'; omega

/-! ## What the scratch and the result's buffer hold after each point -/

/-- After the body at position `n`: (the result's buffer, the scratch). The first point runs from a scratch holding
    anything; each later point from what the point before left in the scratch; only the last point stores the result. -/
def outsAt (c : Dev nD) : (n : ℕ) → n < cfg0.N → Vec F S1x1 .f32 × Vec F S1x1 .f32
  | 0, hn => (outIdle, soutFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) (notLast_zero hn) (iblk m c 0 ⟨0, hn⟩) (iblk m c 1 ⟨0, hn⟩) (iblk m c 2 ⟨0, hn⟩) (iblk m c 3 ⟨0, hn⟩))
  | n + 1, hn =>
    if h1 : (n + 1) % 64 = 63 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (notFirst_succ n hn) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       soutLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (notFirst_succ n hn) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
    else
      (outIdle, soutMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (notFirst_succ n hn) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

/-- At the first point. -/
theorem outsAt_First (c : Dev nD) (t : Fin cfg0.N) (h0 : t.val % 64 = 0) (h1 : ¬t.val % 64 = 63) :
    outsAt m c t.val t.isLt = (outIdle, soutFirst c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t)) := by
  obtain ⟨n, hn⟩ := t
  cases n with
  | zero => exact rfl
  | succ n => exact (by exfalso; have hN : n + 1 < 64 := lt_of_lt_of_eq hn (show cfg0.N = 64 from N_0); (try dsimp only at h0); omega)

/-- At a middle point: over what the point before left. -/
theorem outsAt_Mid (c : Dev nD) (t : Fin cfg0.N) (h0 : ¬t.val % 64 = 0) (h1 : ¬t.val % 64 = 63) :
    outsAt m c t.val t.isLt = (outIdle, soutMid c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point: over what the point before left. -/
theorem outsAt_Last (c : Dev nD) (t : Fin cfg0.N) (h0 : ¬t.val % 64 = 0) (h1 : t.val % 64 = 63) :
    outsAt m c t.val t.isLt = (outLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2,
      soutLast c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The invariant carried between points -/

/-- Before position `n`: at the start what the launch hands over (the scratch at anything); afterwards the scratch at
    what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body each input window's buffer at its block, the result's at
    `outsAt`'s first component; the invariant `PhiS`; nothing owed; windows 0 and 2 read one argument array and
    windows 1 and 3 the other, so each holds half of its array, and the result's window holds all of its own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem q_eq (c : Dev nD) : (dats m 0 c).q = fun w => match w with
    | ⟨0, _⟩ => fullShare.left
    | ⟨1, _⟩ => fullShare.left
    | ⟨2, _⟩ => fullShare.right
    | ⟨3, _⟩ => fullShare.right
    | ⟨4, _⟩ => fullShare := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- An input window's buffer holds its block whenever the body runs. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- The input windows are never idle: after the body each buffer holds its block. -/
theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveAt0 t], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveAt1 t], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveAt2 t], after2]
theorem leaves3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [liveAt3 t], after3]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the point's position says which of the three cases it
    is in, and that case's run applies: the invariant hands it the scratch (at anything at the first point, else at what
    the point before left) and takes it back at this point's contents, the pieces covering it; the result's buffer comes
    back untouched except at the last point, where the pieces stored cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0 m c t, leaves1 m c t, leaves2 m c t, leaves3 m c t]
  have hN : t.val < 64 := lt_of_lt_of_eq t.isLt (show cfg0.N = 64 from N_0)
  by_cases h0 : t.val % 64 = 0
  · have hz : t.val = 0 := by omega
    have h1 : ¬t.val % 64 = 63 := by omega
    rw [Dat.leavesExact_idle (dats m 0 c) 4 t (idleAt4 t (fun h => h1 ((hcondLast t).mp h))) (noFlush4 t (fun h => h1 ((hcondLast t).mp h)))]
    rw [outsAt_First m c t h0 h1]
    unfold soutFirst; (try dsimp only)
    rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩⟩
    iapply ((kernelRunFirst c (grid0.coords t) _ _ _ _ _ _ _ _ _ _ _ _ ((hcondFirst t).mpr h0) (fun h => h1 ((hcondLast t).mp h)) (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (scoverFirst c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 64 = 63
    · rw [show (dats m 0 c).leavesExact 4 t = owns (c : Thread nD τ) (ms4 t) fullShare ((dats m 0 c).after 4 t) from by
        unfold Dat.leavesExact; rw [liveAt4 t ((hcondLast t).mpr h1)], after4]
      rw [outsAt_Last m c t h0 h1]
      unfold outLast soutLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((kernelRunLast c (grid0.coords t) _ _ _ _ _ _ _ _ _ _ _ _ (fun h => h0 ((hcondFirst t).mp h)) ((hcondLast t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (scoverLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast c _ _ _ _ _ _ _ _ _ _ _ _ _ _ _ _ _ _ _ _)
    · rw [Dat.leavesExact_idle (dats m 0 c) 4 t (idleAt4 t (fun h => h1 ((hcondLast t).mp h))) (noFlush4 t (fun h => h1 ((hcondLast t).mp h)))]
      rw [outsAt_Mid m c t h0 h1]
      unfold soutMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((kernelRunMid c (grid0.coords t) _ _ _ _ _ _ _ _ _ _ _ _ (fun h => h0 ((hcondFirst t).mp h)) (fun h => h1 ((hcondLast t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (scoverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives that back: what the scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

/-- In particular after the last. -/
theorem hout (c : Dev nD) : (dats m 0 c).Φ (Fin.last cfg0.N) ⊢ Pipeline.ΦA spec0 c :=
  Phi_out m c _ (by rw [Fin.val_last]; have : cfg0.N = 64 := N_0; omega)

end Cert.KernelIdeal.Frame

end
-- ==== Proof.KI.Blocks.lean ====
/-
  The four staged blocks of the two argument arrays, read at an index, and the result array after the run.

  Grid point t = 8·i + j. Windows 0 and 1 stage the 32 rows of row tile i of the two arrays, windows 2 and 3 the 32 rows
  of row tile j of the same two arrays; all 512 columns each time. A block's coordinate along an axis is ALWAYS
  (block index) × (block extent) + (coordinate inside the block), so row a of window 0's block at point t is row
  32·(t / 8) + a of the array, and row b of window 2's block is row 32·(t % 8) + b; the column is unchanged because the
  block index along the columns is 0 and the block spans all of them. The block indices are decided once over the 64
  points.

  The result is a 1 × 1 array whose only block is the whole array. It is written back exactly once, after point 63, so
  after the run it holds what the body left in the staging buffer at point 63.
-/
import proofs.«155679_j38474317038467_1_alg».proof.Proof.KI.Base
import proofs.«155679_j38474317038467_1_alg».proof.Proof.Spec
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staged blocks, read at an index -/

/-- Windows 0 and 1: the block index along the rows is the first grid coordinate t / 8, along the columns 0. -/
theorem rowTile_index : ∀ t : Fin cfg0.N,
    (win0_0.index t (0 : Fin 2) = t.val / 8 ∧ win0_0.index t (1 : Fin 2) = 0) ∧
    (win0_1.index t (0 : Fin 2) = t.val / 8 ∧ win0_1.index t (1 : Fin 2) = 0) :=
  (by decide +kernel : ∀ t : Fin grid0.N,
    (win0_0.index t (0 : Fin 2) = t.val / 8 ∧ win0_0.index t (1 : Fin 2) = 0) ∧
    (win0_1.index t (0 : Fin 2) = t.val / 8 ∧ win0_1.index t (1 : Fin 2) = 0))

/-- Windows 2 and 3: the block index along the rows is the second grid coordinate t % 8, along the columns 0. -/
theorem colTile_index : ∀ t : Fin cfg0.N,
    (win0_2.index t (0 : Fin 2) = t.val % 8 ∧ win0_2.index t (1 : Fin 2) = 0) ∧
    (win0_3.index t (0 : Fin 2) = t.val % 8 ∧ win0_3.index t (1 : Fin 2) = 0) :=
  (by decide +kernel : ∀ t : Fin grid0.N,
    (win0_2.index t (0 : Fin 2) = t.val % 8 ∧ win0_2.index t (1 : Fin 2) = 0) ∧
    (win0_3.index t (0 : Fin 2) = t.val % 8 ∧ win0_3.index t (1 : Fin 2) = 0))

/-- Row a of window 0's block at point t is row 32·(t / 8) + a of the first argument array. -/
theorem iblk0_apply (c : Dev nD) (t : Fin cfg0.N) (a : Fin 32) (d : Fin 512) :
    (iblk m c 0 t : Vec F S32x512 .f32) (ix2 a d) = V m c main_arg0 (ix2 (Cert.PairKL.rowOf (t.cast N_0) a) d) := by
  have hi := (rowTile_index t).1
  unfold iblk
  rw [View.read_apply]
  show V m c main_arg0 _ = V m c main_arg0 _
  congr 1
  funext ax
  apply Fin.ext
  match ax with
  | ⟨0, _⟩ =>
    show win0_0.index t 0 * 32 + 1 * (a : Nat) = 32 * ((t : Nat) / 8) + (a : Nat)
    rw [hi.1]; omega
  | ⟨1, _⟩ =>
    show win0_0.index t 1 * 512 + 1 * (d : Nat) = (d : Nat)
    rw [hi.2]; omega

/-- The same rows of the second argument array. -/
theorem iblk1_apply (c : Dev nD) (t : Fin cfg0.N) (a : Fin 32) (d : Fin 512) :
    (iblk m c 1 t : Vec F S32x512 .f32) (ix2 a d) = V m c main_arg1 (ix2 (Cert.PairKL.rowOf (t.cast N_0) a) d) := by
  have hi := (rowTile_index t).2
  unfold iblk
  rw [View.read_apply]
  show V m c main_arg1 _ = V m c main_arg1 _
  congr 1
  funext ax
  apply Fin.ext
  match ax with
  | ⟨0, _⟩ =>
    show win0_1.index t 0 * 32 + 1 * (a : Nat) = 32 * ((t : Nat) / 8) + (a : Nat)
    rw [hi.1]; omega
  | ⟨1, _⟩ =>
    show win0_1.index t 1 * 512 + 1 * (d : Nat) = (d : Nat)
    rw [hi.2]; omega

/-- Row b of window 2's block at point t is row 32·(t % 8) + b of the first argument array. -/
theorem iblk2_apply (c : Dev nD) (t : Fin cfg0.N) (b : Fin 32) (d : Fin 512) :
    (iblk m c 2 t : Vec F S32x512 .f32) (ix2 b d) = V m c main_arg0 (ix2 (Cert.PairKL.colOf (t.cast N_0) b) d) := by
  have hi := (colTile_index t).1
  unfold iblk
  rw [View.read_apply]
  show V m c main_arg0 _ = V m c main_arg0 _
  congr 1
  funext ax
  apply Fin.ext
  match ax with
  | ⟨0, _⟩ =>
    show win0_2.index t 0 * 32 + 1 * (b : Nat) = 32 * ((t : Nat) % 8) + (b : Nat)
    rw [hi.1]; omega
  | ⟨1, _⟩ =>
    show win0_2.index t 1 * 512 + 1 * (d : Nat) = (d : Nat)
    rw [hi.2]; omega

/-- The same rows of the second argument array. -/
theorem iblk3_apply (c : Dev nD) (t : Fin cfg0.N) (b : Fin 32) (d : Fin 512) :
    (iblk m c 3 t : Vec F S32x512 .f32) (ix2 b d) = V m c main_arg1 (ix2 (Cert.PairKL.colOf (t.cast N_0) b) d) := by
  have hi := (colTile_index t).2
  unfold iblk
  rw [View.read_apply]
  show V m c main_arg1 _ = V m c main_arg1 _
  congr 1
  funext ax
  apply Fin.ext
  match ax with
  | ⟨0, _⟩ =>
    show win0_3.index t 0 * 32 + 1 * (b : Nat) = 32 * ((t : Nat) % 8) + (b : Nat)
    rw [hi.1]; omega
  | ⟨1, _⟩ =>
    show win0_3.index t 1 * 512 + 1 * (d : Nat) = (d : Nat)
    rw [hi.2]; omega

/-! ## The result array after the run -/

/-- The result's window has one block, at block index (0, 0), at every point. -/
theorem resultTile_index : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The result array after all 64 points is what the body left in the result's staging buffer at point 63: only that
    point's write-back happens, its block at index (0, 0) with extent 1 × 1 is the whole array (so the write-back's
    payload, read through the block, is the buffer's contents themselves), and that one block covers the one index. -/
theorem arrAt4_final {c : Dev nD} (dat : Dat τ (Elt F) Unit ℕ (UR sig nD τ) ℕ cfg0 c) (h63 : 63 < cfg0.N) :
    (dat.arrAt 4 cfg0.N : Vec F S1x1 .f32) = (dat.after 4 ⟨63, h63⟩ : Vec F S1x1 .f32) := by
  have hN : cfg0.N = 64 := N_0
  have hz : ∀ t : Fin cfg0.N, (fun a => win0_4.index t a * main_v0.ty.shape.size a) = fun _ => 0 := fun t =>
    funext fun a => by
      match a with
      | ⟨0, _⟩ => show win0_4.index t 0 * _ = 0; rw [(resultTile_index t).1, Nat.zero_mul]
      | ⟨1, _⟩ => show win0_4.index t 1 * _ = 0; rw [(resultTile_index t).2, Nat.zero_mul]
  refine dat.arrAt_eq_of_cover 4 (dat.after 4 ⟨63, h63⟩) (fun t hf => ?_) (fun i => ?_)
  · have h1 : t.val = 63 := by have := (flush0_4 t).mp hf; have := t.isLt; omega
    obtain rfl : t = ⟨63, h63⟩ := Fin.ext h1
    show (cfg0.win 4).cut (grid0.coords ⟨63, h63⟩) (dat.after 4 ⟨63, h63⟩) = _
    exact (Memref.read_access_unit_zero (Elt F) main_v0 (hz ⟨63, h63⟩)
      (fun a => by rw [congrFun (hz ⟨63, h63⟩) a]; simp) (dat.after 4 ⟨63, h63⟩)).symm
  · refine ⟨⟨63, h63⟩, (flush0_4 _).mpr rfl, ?_⟩
    show i ∈ ((View.whole main_v0).slice (win0_4.rect ⟨63, h63⟩)).set
    rw [View.set_slice_whole]
    exact View.mem_set_unit_zero (hz ⟨63, h63⟩) (fun a => by rw [congrFun (hz ⟨63, h63⟩) a]; simp) i

end Cert.KernelIdeal.Frame

end
-- ==== Proof.KI.Final.lean ====
/-
  The run of `KernelIdeal` at its proof data, and what it leaves: the two argument arrays as they were (windows 0
  and 1 only read them: the pipeline library's arrays of input windows are their entry contents), and the scalar
  result the one element the body stored into the result window at the last grid point (the result array is written
  back exactly once, after that point).
-/
import proofs.«155679_j38474317038467_1_alg».proof.Proof.KI.Launch
import proofs.«155679_j38474317038467_1_alg».proof.Proof.KI.Data
import proofs.«155679_j38474317038467_1_alg».proof.Proof.KI.Blocks

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates; each window's array ends at what the pipeline library computes
    from the proof data, and the scalar result is the reshape of the result array. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ r.2.mem ((c.tc : Thread nD τ).loc main_v1) = scalarOf ((dats m 0 c).arrAt 4 cfg0.N)) :=
  run_main_of m ρ (dats m) (A_eq m) (q_eq m) (fun _ _ => rfl) (fun c => (body_obligation m c).loose) (hin m) (hout m)

/-- The run with its results named: the scalar result is the reshape of what the body left in the result window's
    buffer at the last point, and the argument arrays are unchanged. -/
theorem run_out (h63 : 63 < cfg0.N) : θ_run defs (onTc (τ := τ) (main (F := F))) ⟨m, fun _ => 0, ρ⟩ (fun r => ∀ c : Dev nD,
      r.2.mem ((c.tc : Thread nD τ).loc main_v1) = scalarOf (outsAt m c 63 h63).1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2.trans (congrArg scalarOf ((arrAt4_final (dats m 0 c) h63).trans (after4 m c ⟨63, h63⟩))),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

/-- THE FRAME: @main runs to its end, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_out m ρ (lt_of_lt_of_eq (by decide) N_0.symm))

end Cert.KernelIdeal.Frame

end
-- ==== Proof.KI.Step.lean ====
/-
  One grid point's update of the running sum, as a pure function of the four input blocks and the sum so far, over the
  body's named payloads: the masked half-sums of the tile (`k0_pay4`), summed over the tile and added to the
  carried value (`k0_pay1`). At the first point the carried value is the zero the body has just stored (`k0_pay3`);
  at the last point the result is the running sum over the batch size (`k0_pay2`).
-/
import proofs.«155679_j38474317038467_1_alg».proof.Proof.Gen.KernelIdeal.Skeleton

noncomputable section

namespace Cert.KernelIdeal.Frame

open Cert.KernelIdeal Cert.KernelIdeal.Gen Idealize.ShloMosaic Idealize.SL.Sem

variable {F : FTy → Type} [FloatOps F]

/-- The scratch after the body at grid coordinates `i`, from the four input blocks and the scratch before. -/
def step (i : grid0.Coords) (x0 x1 x2 x3 : Vec F S32x512 .f32) (acc : Vec F S1x1 .f32) : Vec F S1x1 .f32 :=
  k0_pay1 (BitVec.ofNat 32 (i 1).val) (k0_pay4 x0 x1 x2 x3) (iota .tc S32x32 32 [0] iota_S32x32_d0_w32) (k0_pay5 i) acc

end Cert.KernelIdeal.Frame

end
-- ==== Proof.KI.PayValue.lean ====
/-
  The kernel body's arithmetic, read one entry at a time, at the extended reals.

  At grid point (i₀, i₁) the body holds four 32 × 512 tiles: the means and log-variances of rows 32·i₀ … 32·i₀+31 (the
  row tile) and of rows 32·i₁ … 32·i₁+31 (the column tile). It forms the 32 × 32 block whose entry (a, b) is half the
  sum over the 512 coordinates of the summand for row a of the row tile against row b of the column tile; multiplies
  the block by the mask that is 0 where the two rows are the same row of the array and 1 elsewhere; sums the masked
  block; and adds the total to a running sum, which starts from zero and is divided by 256 at the end. Each of the four
  statements below says what one of those values is at an index, as a formula over the entries of what it is computed
  from.
-/
import proofs.«155679_j38474317038467_1_alg».proof.Proof.Gen.KernelIdeal.Skeleton
import proofs.«155679_j38474317038467_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Cert.PairKL Idealize.ShloMosaic Idealize.ShloMosaic.ValueIdx

/-! ## Layout steps read at coordinates

The kernel forms all 32 × 32 pairs of rows by giving each tile a unit axis and then repeating it along that axis:
a row tile [32, 512] becomes [32, 1, 512] and is repeated to [32, 32, 512] (entry (a, b, d) is row a's coordinate d);
a column tile becomes [1, 32, 512] and is repeated likewise (entry (a, b, d) is row b's coordinate d). -/

variable {α : Type}

/-- An [a, c] array viewed as [a, 1, c]: entry (i, u, k) is entry (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An [a, 1, c] array repeated along its unit axis to [a, b, c]: entry (i, j, k) is entry (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array repeated along its unit axis to [a, b, c]: entry (i, j, k) is entry (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A row tile, given its unit axis and repeated: entry (p, q, d) of the result is entry (p, d) of the tile. -/
theorem rowRep_apply (x : S32x512.Idx → α) (p q : Fin 32) (d : Fin 512) :
    broadcastTo S32x32x512 (shapeCast S32x1x512 x shapeCasts_S32x512_S32x1x512) broadcasts_S32x1x512_S32x32x512 (ix3 p q d)
      = x (ix2 p d) :=
  (broadcastTo_a1c_abc_apply _ _ p q d).trans (shapeCast_ac_a1c_apply x _ p 0 d)

/-- A column tile, given its unit axis and repeated: entry (p, q, d) of the result is entry (q, d) of the tile. -/
theorem colRep_apply (x : S32x512.Idx → α) (p q : Fin 32) (d : Fin 512) :
    broadcastTo S32x32x512 (shapeCast S1x32x512 x shapeCasts_S32x512_S1x32x512) broadcasts_S1x32x512_S32x32x512 (ix3 p q d)
      = x (ix2 q d) :=
  (broadcastTo_1bc_abc_apply _ _ p q d).trans (shapeCast_ab_1ab_apply x _ 0 q d)

/-! ## The three lane sums

Each is a sum over one axis with a zero accumulator: at the ideal values, the plain sum over that axis's coordinates. -/

/-- The sum over the last axis of a [32, 32, 512] array: entry (p, q) is the sum over d of entry (p, q, d). -/
theorem sumD_apply (v : FVec Ideal S32x32x512 .f32) (hφ : FKind.Formats .f32)
    (hacc : (0x00000000#32 : BitVec 32) = 0x00000000#32) (p q : Fin 32) :
    multiReduction (F := Ideal) .add [2] S32x32 v 0x00000000#32 reduces_S32x32x512_S32x32 hφ hacc (ix2 p q)
      = ∑ d : Fin 512, v (ix3 p q d) :=
  (Ideal.multiReduction_add_single v 0x00000000#32 reduces_S32x32x512_S32x32 hφ hacc (ix2 p q)).trans
    (Finset.sum_congr rfl fun d _ => congrArg v (funext fun c => Fin.ext (by
      match c with
      | ⟨0, _⟩ => rfl
      | ⟨1, _⟩ => rfl
      | ⟨2, _⟩ => rfl)))

/-- The sum over the columns of a [32, 32] array: entry p is the sum over q of entry (p, q). -/
theorem sumCols_apply (v : FVec Ideal S32x32 .f32) (hφ : FKind.Formats .f32)
    (hacc : (0x00000000#32 : BitVec 32) = 0x00000000#32) (p : Fin 32) :
    multiReduction (F := Ideal) .add [1] S32 v 0x00000000#32 reduces_S32x32_S32 hφ hacc (ix1 p)
      = ∑ q : Fin 32, v (ix2 p q) :=
  (Ideal.multiReduction_add_single v 0x00000000#32 reduces_S32x32_S32 hφ hacc (ix1 p)).trans
    (Finset.sum_congr rfl fun q _ => congrArg v (funext fun c => Fin.ext (by
      match c with
      | ⟨0, _⟩ => rfl
      | ⟨1, _⟩ => rfl)))

/-- The sum over the one row of a [1, 32] array: its one entry is the sum over q of entry (0, q). -/
theorem sumRow_apply (v : FVec Ideal S1x32 .f32) (hφ : FKind.Formats .f32)
    (hacc : (0x00000000#32 : BitVec 32) = 0x00000000#32) (u : Fin 1) :
    multiReduction (F := Ideal) .add [1] S1 v 0x00000000#32 reduces_S1x32_S1 hφ hacc (ix1 u)
      = ∑ q : Fin 32, v (ix2 (0 : Fin 1) q) :=
  (Ideal.multiReduction_add_single v 0x00000000#32 reduces_S1x32_S1 hφ hacc (ix1 u)).trans
    (Finset.sum_congr rfl fun q _ => congrArg v (funext fun c => Fin.ext (by
      match c with
      | ⟨0, _⟩ => show u.val = 0; omega
      | ⟨1, _⟩ => rfl)))

/-- The exponential read at an index. -/
theorem exp_apply {s : Shape} {φ : FTy} (x : FVec Ideal s φ) (i : s.Idx) : exp x i = Ideal.exp (x i) := rfl

/-! ## The pair divergences of a tile

Entry (a, b) of the 32 × 32 block is half the sum over the 512 coordinates of the summand for row a of the row tile
against row b of the column tile, with the products by e^{0 − λ_b} the kernel uses in place of quotients. -/

theorem pay4_apply (x0 x1 x2 x3 : Vec Ideal S32x512 .f32) (a b : Fin 32) :
    k0_pay4 (F := Ideal) x0 x1 x2 x3 (ix2 a b)
      = half * ∑ d : Fin 512, termP (x0 (ix2 a d)) (x1 (ix2 a d)) (x2 (ix2 b d)) (x3 (ix2 b d)) := by
  unfold k0_pay4
  dsimp only
  refine (mulf_apply _ _ _).trans ?_
  refine congrArg (half * ·) ?_
  refine (sumD_apply _ _ _ a b).trans ?_
  refine Finset.sum_congr rfl fun d _ => ?_
  simp only [subf_apply, addf_apply, mulf_apply, exp_apply, broadcast_apply, rowRep_apply, colRep_apply]
  rfl

/-! ## The 1 × 1 vectors -/

/-- A 1 × 1 array has one index. -/
theorem idx11 (y : S1x1.Idx) : y = ix2 (0 : Fin 1) (0 : Fin 1) := by
  obtain ⟨p, q, rfl⟩ : ∃ (p q : Fin 1), y = ix2 p q := ⟨y 0, y 1, eq_ix2 y⟩
  rw [Subsingleton.elim p 0, Subsingleton.elim q 0]

/-- Reading the entry at position [0, 0] of a 1 × 1 array. -/
theorem extractAt00 (w : S1x1.Idx → α) (h : ∀ c, (![0, 0] : Fin 2 → Nat) c < S1x1.size c) :
    extractAt ![0, 0] w h = w (ix2 (0 : Fin 1) (0 : Fin 1)) :=
  congrArg w (funext fun c => Fin.ext (by
    match c with
    | ⟨0, _⟩ => rfl
    | ⟨1, _⟩ => rfl))

/-- The result: the running sum over 256. -/
theorem pay2_apply (v : Vec Ideal S1x1 .f32) (y : S1x1.Idx) : k0_pay2 (F := Ideal) v y = Ideal.div (v (ix2 0 0)) n256 := by
  obtain rfl : y = ix2 (0 : Fin 1) (0 : Fin 1) := idx11 y
  rfl

/-- The running sum starts from zero. -/
theorem pay3_apply (y : S1x1.Idx) : k0_pay3 (F := Ideal) y = zero := by
  unfold k0_pay3
  exact congrFun (shapeCast_self _ _) y

/-! ## The off-diagonal mask

Row a of row tile i₀ is row 32·i₀ + a of the array, and row b of column tile i₁ is row 32·i₁ + b. The kernel compares
the two numbers as 32-bit words; with i₀, i₁ < 8 and a, b < 32 both are below 256, so the words differ exactly when the
numbers do. The comparison's bit, widened and converted, is the real 0 on the diagonal and 1 off it. -/

theorem maskWord (m n p q : Nat) (hm : m < 8) (hn : n < 8) (hp : p < 32) (hq : q < 32) :
    FloatOps.sitofp (F := Ideal) .f32
        ((IntOp.cmpi .ne (IntOp.addi (Scalar.muli (BitVec.ofNat 32 m) 32#32) (BitVec.ofNat 32 p))
            (IntOp.addi (Scalar.muli (BitVec.ofNat 32 n) 32#32) (BitVec.ofNat 32 q))).setWidth 32)
      = if 32 * m + p = 32 * n + q then (0 : EReal) else 1 := by
  have e : ∀ m p : Nat, IntOp.addi (Scalar.muli (BitVec.ofNat 32 m) 32#32) (BitVec.ofNat 32 p) = BitVec.ofNat 32 (32 * m + p) := by
    intro m p
    show BitVec.ofNat 32 m * BitVec.ofNat 32 32 + BitVec.ofNat 32 p = _
    rw [BitVec.ofNat_mul_ofNat, BitVec.ofNat_add_ofNat, Nat.mul_comm]
  rw [e, e]
  by_cases h : 32 * m + p = 32 * n + q
  · rw [if_pos h, h]
    show ((((BitVec.ofBool (BitVec.ofNat 32 (32 * n + q) != BitVec.ofNat 32 (32 * n + q))).setWidth 32).toInt : ℝ) : EReal) = 0
    rw [bne_self_eq_false]
    have : ((BitVec.ofBool false).setWidth 32).toInt = 0 := by decide
    rw [this, Int.cast_zero, EReal.coe_zero]
  · rw [if_neg h]
    have hne : BitVec.ofNat 32 (32 * m + p) ≠ BitVec.ofNat 32 (32 * n + q) := by
      intro heq
      have := congrArg BitVec.toNat heq
      simp only [BitVec.toNat_ofNat] at this
      omega
    show ((((BitVec.ofBool (BitVec.ofNat 32 (32 * m + p) != BitVec.ofNat 32 (32 * n + q))).setWidth 32).toInt : ℝ) : EReal) = 1
    rw [bne_iff_ne.mpr hne]
    have : ((BitVec.ofBool true).setWidth 32).toInt = 1 := by decide
    rw [this, Int.cast_one, EReal.coe_one]

/-- The mask at entry (a, b) of the tile pair i = (i₀, i₁). -/
theorem mask_apply (i : grid0.Coords) (a b : Fin 32) :
    sitofp (F := Ideal) .f32 (extui 32 (cmpi .ne (addi (k0_pay5 i) (iota .tc S32x32 32 [0] iota_S32x32_d0_w32))
        (addi (broadcast S32x32 (Scalar.muli (BitVec.ofNat 32 (i 1).val) 32#32)) (iota .tc S32x32 32 [1] iota_S32x32_d1_w32)))
        natLt_1_32) (ix2 a b)
      = if 32 * (i 0).val + a.val = 32 * (i 1).val + b.val then (0 : EReal) else 1 := by
  have e0 : iota .tc S32x32 32 [0] iota_S32x32_d0_w32 (ix2 a b) = BitVec.ofNat 32 a.val :=
    iota_single_apply .tc S32x32 32 0 _ (ix2 a b)
  have e1 : iota .tc S32x32 32 [1] iota_S32x32_d1_w32 (ix2 a b) = BitVec.ofNat 32 b.val :=
    iota_single_apply .tc S32x32 32 1 _ (ix2 a b)
  show FloatOps.sitofp (F := Ideal) .f32
      ((IntOp.cmpi .ne (IntOp.addi (Scalar.muli (BitVec.ofNat 32 (i 0).val) 32#32) (iota .tc S32x32 32 [0] iota_S32x32_d0_w32 (ix2 a b)))
          (IntOp.addi (Scalar.muli (BitVec.ofNat 32 (i 1).val) 32#32) (iota .tc S32x32 32 [1] iota_S32x32_d1_w32 (ix2 a b)))).setWidth 32) = _
  rw [e0, e1]
  exact maskWord _ _ _ _ (i 0).isLt (i 1).isLt a.isLt b.isLt

/-! ## One grid point's contribution

The masked block is summed along its columns and then along the resulting row, and the total is added to the running
sum: the running sum plus the double sum, over the 32 × 32 pairs, of the pair divergence times the mask. -/

theorem pay1_apply (i : grid0.Coords) (v37 : FVec Ideal S32x32 .f32) (acc : Vec Ideal S1x1 .f32) (y : S1x1.Idx) :
    k0_pay1 (F := Ideal) (BitVec.ofNat 32 (i 1).val) v37 (iota .tc S32x32 32 [0] iota_S32x32_d0_w32) (k0_pay5 i) acc y
      = acc (ix2 0 0) + ∑ a : Fin 32, ∑ b : Fin 32,
          v37 (ix2 a b) * (if 32 * (i 0).val + a.val = 32 * (i 1).val + b.val then (0 : EReal) else 1) := by
  obtain rfl : y = ix2 (0 : Fin 1) (0 : Fin 1) := idx11 y
  unfold k0_pay1
  dsimp only
  refine (congrFun (shapeCast_self _ _) _).trans ?_
  refine (addf_apply _ _ _).trans ?_
  refine congrArg (acc (ix2 0 0) + ·) ?_
  refine (extractAt00 _ _).trans ?_
  refine (shapeCast_a_1a_apply _ _ 0 0).trans ?_
  refine (sumRow_apply _ _ _ 0).trans ?_
  refine Finset.sum_congr rfl fun p _ => ?_
  refine (shapeCast_a_1a_apply _ _ 0 p).trans ?_
  refine (sumCols_apply _ _ _ p).trans ?_
  refine Finset.sum_congr rfl fun q _ => ?_
  refine (mulf_apply _ _ _).trans ?_
  exact congrArg (v37 (ix2 p q) * ·) (mask_apply i p q)

end Cert.KernelIdeal.PayValue

end
-- ==== Proof.SpecLaws.lean ====
/-
  Two laws of the pairwise-divergence sum, with no program in sight.

  (1) For real log-variances the summand written with products by `e^{0 − λ_j}` is the summand written with
  quotients by `e^{λ_j}`: `0 − λ_j` is the real `−λ_j`, `e^{−x} = 1 / e^{x}`, and on the extended reals a quotient
  by a nonzero real is the product with its reciprocal, whatever the numerator (an infinity included). Hence the two
  totals agree when every log-variance is real.

  (2) A sum over all pairs `(i, j)` of rows, `i, j < 256`, is the sum over the 64 tiles `t = 8·I + J` of the sums
  over the 32 × 32 pairs inside tile `(I, J)`: every row is `32·I + a` for exactly one `(I, a)`, every tile number is
  `8·I + J` for exactly one `(I, J)`, and a finite sum in a commutative monoid may be re-indexed along a bijection
  and its nested sums exchanged.
-/
import proofs.«155679_j38474317038467_1_alg».proof.Proof.Spec
import Idealize.ShloMosaic.PureOps.Ideal.Laws

noncomputable section

open scoped BigOperators

namespace Cert.PairKL

open Idealize.ShloMosaic Idealize.ShloMosaic.ValueIdx

/-! ## Products by the reciprocal exponential against quotients -/

/-- With real log-variances the two ways of writing the summand agree, for arbitrary extended-real means. -/
theorem termP_eq_termQ (mi mj : EReal) (li lj : ℝ) :
    termP mi (li : EReal) mj (lj : EReal) = termQ mi (li : EReal) mj (lj : EReal) := by
  -- `0 − λ_j` is the real number `−λ_j`
  have hz : zero - (lj : EReal) = ((-lj : ℝ) : EReal) := by
    rw [zero, Ideal.ofBits_zero_f32, zero_sub, EReal.coe_neg]
  -- and its exponential is the reciprocal of `e^{λ_j}`
  have hx : Ideal.exp ((-lj : ℝ) : EReal) = ((1 / Real.exp lj : ℝ) : EReal) := by
    rw [Ideal.exp_coe, Real.exp_neg, one_div]
  have hne : Real.exp lj ≠ 0 := Real.exp_ne_zero lj
  unfold termP termQ
  rw [hz, hx, Ideal.exp_coe lj, Ideal.div_coe hne, Ideal.div_coe hne]

/-- So the totals agree when every log-variance is a real number. -/
theorem total_P_eq_Q (mu lv : Arr) (hlv : ∀ k, ∃ r : ℝ, lv k = (r : EReal)) :
    total termP mu lv = total termQ mu lv := by
  unfold total kl
  refine Finset.sum_congr rfl fun i _ => Finset.sum_congr rfl fun j _ => ?_
  refine congrArg (· * offDiag i j) (congrArg (half * ·) (Finset.sum_congr rfl fun d _ => ?_))
  obtain ⟨ri, hri⟩ := hlv (ix2 i d)
  obtain ⟨rj, hrj⟩ := hlv (ix2 j d)
  rw [hri, hrj, termP_eq_termQ]

/-! ## The sum over pairs, tile by tile -/

/-- A row number below 256 is `32·I + a` for exactly one tile row `I < 8` and offset `a < 32`. -/
def rowSplit : Fin 8 × Fin 32 ≃ Fin 256 where
  toFun p := ⟨32 * p.1.val + p.2.val, by have := p.1.isLt; have := p.2.isLt; omega⟩
  invFun k := (⟨k.val / 32, by have := k.isLt; omega⟩, ⟨k.val % 32, Nat.mod_lt _ (by decide)⟩)
  left_inv p := by
    obtain ⟨⟨I, hI⟩, ⟨a, ha⟩⟩ := p
    refine Prod.ext (Fin.ext ?_) (Fin.ext ?_)
    · show (32 * I + a) / 32 = I; omega
    · show (32 * I + a) % 32 = a; omega
  right_inv k := by
    apply Fin.ext
    show 32 * (k.val / 32) + k.val % 32 = k.val
    omega

/-- A tile number below 64 is `8·I + J` for exactly one pair of tile coordinates `I, J < 8`. -/
def tileSplit : Fin 8 × Fin 8 ≃ Fin 64 where
  toFun p := ⟨8 * p.1.val + p.2.val, by have := p.1.isLt; have := p.2.isLt; omega⟩
  invFun t := (⟨t.val / 8, by have := t.isLt; omega⟩, ⟨t.val % 8, Nat.mod_lt _ (by decide)⟩)
  left_inv p := by
    obtain ⟨⟨I, hI⟩, ⟨J, hJ⟩⟩ := p
    refine Prod.ext (Fin.ext ?_) (Fin.ext ?_)
    · show (8 * I + J) / 8 = I; omega
    · show (8 * I + J) % 8 = J; omega
  right_inv t := by
    apply Fin.ext
    show 8 * (t.val / 8) + t.val % 8 = t.val
    omega

/-- In tile `8·I + J` the rows are those of tile row `I` … -/
theorem rowOf_tileSplit (I J : Fin 8) (a : Fin 32) : rowOf (tileSplit (I, J)) a = rowSplit (I, a) := by
  apply Fin.ext
  show 32 * ((8 * I.val + J.val) / 8) + a.val = 32 * I.val + a.val
  have := J.isLt
  omega

/-- … and the columns those of tile column `J`. -/
theorem colOf_tileSplit (I J : Fin 8) (b : Fin 32) : colOf (tileSplit (I, J)) b = rowSplit (J, b) := by
  apply Fin.ext
  show 32 * ((8 * I.val + J.val) % 8) + b.val = 32 * J.val + b.val
  have := J.isLt
  omega

/-- The sum over all pairs of rows is the sum, over the 64 tiles, of the sums over each tile's 32 × 32 pairs. -/
theorem sum_tiles {M : Type*} [AddCommMonoid M] (f : Fin 256 → Fin 256 → M) :
    (∑ i : Fin 256, ∑ j : Fin 256, f i j)
      = ∑ t : Fin 64, ∑ a : Fin 32, ∑ b : Fin 32, f (rowOf t a) (colOf t b) := by
  calc (∑ i : Fin 256, ∑ j : Fin 256, f i j)
      = ∑ p : Fin 8 × Fin 32, ∑ q : Fin 8 × Fin 32, f (rowSplit p) (rowSplit q) := by
        rw [← Equiv.sum_comp rowSplit]
        refine Finset.sum_congr rfl fun p _ => ?_
        rw [← Equiv.sum_comp rowSplit]
    _ = ∑ I : Fin 8, ∑ J : Fin 8, ∑ a : Fin 32, ∑ b : Fin 32, f (rowSplit (I, a)) (rowSplit (J, b)) := by
        simp only [Fintype.sum_prod_type]
        exact Finset.sum_congr rfl fun I _ => Finset.sum_comm
    _ = ∑ t : Fin 64, ∑ a : Fin 32, ∑ b : Fin 32, f (rowOf t a) (colOf t b) := by
        rw [← Equiv.sum_comp tileSplit, Fintype.sum_prod_type]
        simp only [rowOf_tileSplit, colOf_tileSplit]

end Cert.PairKL

end
-- ==== Proof.KI.Fold.lean ====
/-
  The 64 grid points' updates of the running sum, added up.

  At grid point `t = 8·I + J` the update adds to the carried value the sum, over the 32 × 32 pairs of the tile, of the
  half-sums of the summand (with products) at row `32·I + a` and row `32·J + b`, each times 0 when the two row numbers
  coincide and 1 otherwise — the off-diagonal mask at that pair. The first point starts from the zero just stored, so
  after point `n` the carried value is the sum of the tile sums of the points up to `n`; after the last point it is the
  sum over all 64 tiles, which is the sum over all pairs of rows regrouped tile by tile, and the final operation divides
  it by the word of 256.
-/
import proofs.«155679_j38474317038467_1_alg».proof.Proof.Gen.KernelIdeal.Skeleton
import proofs.«155679_j38474317038467_1_alg».proof.Proof.Gen.KernelIdeal.Launch
import proofs.«155679_j38474317038467_1_alg».proof.Proof.KI.Step
import proofs.«155679_j38474317038467_1_alg».proof.Proof.KI.PayValue
import proofs.«155679_j38474317038467_1_alg».proof.Proof.SpecLaws

noncomputable section

open scoped BigOperators

namespace Cert.KernelIdeal.Frame

open Cert.KernelIdeal Cert.KernelIdeal.Gen Cert.PairKL Idealize.ShloMosaic Idealize.ShloMosaic.ValueIdx

/-- The grid runs row-major over 8 × 8: point `t` has tile row `t / 8` and tile column `t % 8`. -/
theorem coords_val (t : Fin grid0.N) :
    ((grid0.coords t) 0).val = t.val / 8 ∧ ((grid0.coords t) 1).val = t.val % 8 :=
  (by decide +kernel :
    ∀ t : Fin grid0.N, ((grid0.coords t) 0).val = t.val / 8 ∧ ((grid0.coords t) 1).val = t.val % 8) t

/-- What tile `t` contributes: the masked half-sums over its 32 × 32 pairs of rows. -/
def tileSum (mu lv : Arr) (t : Fin 64) : EReal :=
  ∑ a : Fin 32, ∑ b : Fin 32, kl termP mu lv (rowOf t a) (colOf t b) * offDiag (rowOf t a) (colOf t b)

/-- One update at grid point `t`, on blocks that hold the rows of tile row `t / 8` and of tile column `t % 8`: the
    carried value plus the tile's contribution. -/
theorem step_apply (mu lv : Arr) (t : Fin grid0.N) (b0 b1 b2 b3 : Vec Ideal S32x512 .f32)
    (h0 : ∀ a d, b0 (ix2 a d) = mu (ix2 (rowOf (t.cast N_0) a) d))
    (h1 : ∀ a d, b1 (ix2 a d) = lv (ix2 (rowOf (t.cast N_0) a) d))
    (h2 : ∀ b d, b2 (ix2 b d) = mu (ix2 (colOf (t.cast N_0) b) d))
    (h3 : ∀ b d, b3 (ix2 b d) = lv (ix2 (colOf (t.cast N_0) b) d))
    (acc : Vec Ideal S1x1 .f32) (y : S1x1.Idx) :
    step (grid0.coords t) b0 b1 b2 b3 acc y = acc (ix2 0 0) + tileSum mu lv (t.cast N_0) := by
  unfold step
  rw [PayValue.pay1_apply]
  refine congrArg (acc (ix2 0 0) + ·) (Finset.sum_congr rfl fun a _ => Finset.sum_congr rfl fun b _ => ?_)
  rw [PayValue.pay4_apply]
  simp only [h0, h1, h2, h3]
  obtain ⟨c0, c1⟩ := coords_val t
  rw [c0, c1]
  -- the two row numbers coincide exactly when the pair is on the diagonal
  have hmask : (if 32 * (t.val / 8) + a.val = 32 * (t.val % 8) + b.val then (0 : EReal) else 1)
      = offDiag (rowOf (t.cast N_0) a) (colOf (t.cast N_0) b) :=
    if_congr (Fin.ext_iff (a := rowOf (t.cast N_0) a) (b := colOf (t.cast N_0) b)).symm rfl rfl
  rw [hmask]
  rfl

/-- After the last of the 64 updates, started from the stored zero, the result over the batch size is the total of the
    specification (with products) over the word of 256. -/
theorem fold_value (mu lv : Cert.PairKL.Arr)
    (B0 B1 B2 B3 : Fin grid0.N → Vec Ideal S32x512 .f32)
    (hB0 : ∀ t a d, B0 t (ix2 a d) = mu (ix2 (rowOf (t.cast N_0) a) d))
    (hB1 : ∀ t a d, B1 t (ix2 a d) = lv (ix2 (rowOf (t.cast N_0) a) d))
    (hB2 : ∀ t b d, B2 t (ix2 b d) = mu (ix2 (colOf (t.cast N_0) b) d))
    (hB3 : ∀ t b d, B3 t (ix2 b d) = lv (ix2 (colOf (t.cast N_0) b) d))
    (acc : (n : ℕ) → n < grid0.N → Vec Ideal S1x1 .f32)
    (h0 : ∀ h, acc 0 h = step (grid0.coords ⟨0, h⟩) (B0 ⟨0, h⟩) (B1 ⟨0, h⟩) (B2 ⟨0, h⟩) (B3 ⟨0, h⟩) (k0_pay3 (F := Ideal)))
    (hs : ∀ n (h : n + 1 < grid0.N), acc (n + 1) h = step (grid0.coords ⟨n + 1, h⟩) (B0 ⟨n + 1, h⟩) (B1 ⟨n + 1, h⟩) (B2 ⟨n + 1, h⟩) (B3 ⟨n + 1, h⟩) (acc n (Nat.lt_of_succ_lt h)))
    (h63 : 63 < grid0.N) (y : S1x1.Idx) :
    k0_pay2 (F := Ideal) (acc 63 h63) y = Ideal.div (total termP mu lv) n256 := by
  -- the tiles' contributions, numbered by the naturals
  let P : ℕ → EReal := fun t => if h : t < 64 then tileSum mu lv ⟨t, h⟩ else 0
  have hstep : ∀ (n : ℕ) (h : n < grid0.N) (acc' : Vec Ideal S1x1 .f32) (y : S1x1.Idx),
      step (grid0.coords ⟨n, h⟩) (B0 ⟨n, h⟩) (B1 ⟨n, h⟩) (B2 ⟨n, h⟩) (B3 ⟨n, h⟩) acc' y = acc' (ix2 0 0) + P n := by
    intro n h acc' y
    rw [step_apply mu lv ⟨n, h⟩ _ _ _ _ (hB0 _) (hB1 _) (hB2 _) (hB3 _)]
    have hn : n < 64 := Nat.lt_of_lt_of_eq h N_0
    show _ + tileSum mu lv ⟨n, _⟩ = _ + (if h : n < 64 then tileSum mu lv ⟨n, h⟩ else 0)
    rw [dif_pos hn]
  -- after point `n` the carried value is the sum of the contributions of the points up to `n`
  have hacc : ∀ (n : ℕ) (h : n < grid0.N) (y : S1x1.Idx), acc n h y = ∑ t ∈ Finset.range (n + 1), P t := by
    intro n
    induction n with
    | zero =>
      intro h y
      rw [h0, hstep, PayValue.pay3_apply, zero, Ideal.ofBits_zero_f32, zero_add, Finset.sum_range_succ,
        Finset.sum_range_zero, zero_add]
    | succ n ih =>
      intro h y
      rw [hs, hstep, ih, ← Finset.sum_range_succ]
  rw [PayValue.pay2_apply, hacc]
  refine congrArg (Ideal.div · n256) ?_
  -- the 64 contributions are the sum over all pairs of rows, regrouped
  rw [Finset.sum_range]
  unfold total
  rw [sum_tiles]
  refine Finset.sum_congr rfl fun t _ => ?_
  show (if h : t.val < 64 then tileSum mu lv ⟨t.val, h⟩ else 0) = _
  rw [dif_pos t.isLt]
  rfl

end Cert.KernelIdeal.Frame

end
-- ==== Proof.KI.Pieces.lean ====
/-
  What the pieces the three runs found ARE, over the body's named payloads.

  At every point the scratch ends at one step of the running sum — the point's masked half-sums, summed over the tile,
  added to what the scratch held when the sum was formed: the zero the body has just stored at the first point (the
  store is read back), else what the point before left. At the last point the result's buffer ends at that new total
  over the batch size (the body reads the scratch again after storing it). Each store fills its 1 × 1 buffer through the
  whole-shape rectangle at zero offsets, and each load reads a whole buffer, so a piece list's contents are the last
  store's payload and every load is the buffer's contents.
-/
import proofs.«155679_j38474317038467_1_alg».proof.Proof.KI.Data
import proofs.«155679_j38474317038467_1_alg».proof.Proof.KI.Step
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 rectangle, however spelt. -/
theorem zeroOff : (![0, 0] : Fin 2 → Nat) = fun _ => 0 := funext fun a => by fin_cases a <;> rfl

/-! ## One lemma per found piece list, on any whole memrefs -/

/-- The first point: the zero is stored, read back, and the sum stored over it. -/
theorem soutFirst_eq (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : condFirst i) (hc2 : ¬condLast i) (x0 x1 x2 x3 : Vec F S32x512 .f32) :
    soutFirst c i arg2 harg2 arg3 harg3 arg4 harg4 arg5 harg5 arg6 harg6 arg7 harg7 hc1 hc2 x0 x1 x2 x3 = step i x0 x1 x2 x3 (k0_pay3 (F := F)) := by
  unfold soutFirst
  rw [View.read_writes_eq_canon _ _ _ (scoverFirst c i arg2 harg2 arg3 harg3 arg4 harg4 arg5 harg5 arg6 harg6 arg7 harg7 hc1 hc2 x0 x1 x2 x3)]
  unfold kernelRunFirst
  dsimp only
  sl_unfold_words
  rw [View.canon_cons_unit_zero (S := S1x1) zeroOff]
  unfold step
  simp only [View.readAt_eq_ld, harg2.read_unread, harg3.read_unread, harg4.read_unread, harg5.read_unread, harg6.read_unread, harg7.read_unread, View.ld_unit_zero (S := S32x512) zeroOff, View.ld_unit_zero (S := S1x1) zeroOff, View.readCov_unit_zero (S := S1x1) _ zeroOff]

/-- A middle point: the sum is stored over what the scratch held. -/
theorem soutMid_eq (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : ¬condLast i) (x0 x1 x2 x3 : Vec F S32x512 .f32) (xs : Vec F S1x1 .f32) :
    soutMid c i arg2 harg2 arg3 harg3 arg4 harg4 arg5 harg5 arg6 harg6 arg7 harg7 hc1 hc2 x0 x1 x2 x3 xs = step i x0 x1 x2 x3 xs := by
  unfold soutMid
  rw [View.read_writes_eq_canon _ _ _ (scoverMid c i arg2 harg2 arg3 harg3 arg4 harg4 arg5 harg5 arg6 harg6 arg7 harg7 hc1 hc2 x0 x1 x2 x3 xs)]
  unfold kernelRunMid
  dsimp only
  sl_unfold_words
  rw [View.canon_unit_zero (S := S1x1) zeroOff]
  unfold step
  simp only [View.readAt_eq_ld, harg2.read_unread, harg3.read_unread, harg4.read_unread, harg5.read_unread, harg6.read_unread, harg7.read_unread, View.ld_unit_zero (S := S32x512) zeroOff, View.ld_unit_zero (S := S1x1) zeroOff]

/-- The last point leaves the same in the scratch, -/
theorem soutLast_eq (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : condLast i) (x0 x1 x2 x3 : Vec F S32x512 .f32) (xs : Vec F S1x1 .f32) :
    soutLast c i arg2 harg2 arg3 harg3 arg4 harg4 arg5 harg5 arg6 harg6 arg7 harg7 hc1 hc2 x0 x1 x2 x3 xs = step i x0 x1 x2 x3 xs := by
  unfold soutLast
  rw [View.read_writes_eq_canon _ _ _ (scoverLast c i arg2 harg2 arg3 harg3 arg4 harg4 arg5 harg5 arg6 harg6 arg7 harg7 hc1 hc2 x0 x1 x2 x3 xs)]
  unfold kernelRunLast
  dsimp only
  sl_unfold_words
  rw [View.canon_unit_zero (S := S1x1) zeroOff]
  unfold step
  simp only [View.readAt_eq_ld, harg2.read_unread, harg3.read_unread, harg4.read_unread, harg5.read_unread, harg6.read_unread, harg7.read_unread, View.ld_unit_zero (S := S32x512) zeroOff, View.ld_unit_zero (S := S1x1) zeroOff]

/-- and in the result's buffer that total over the batch size: the scratch is read again after its store. -/
theorem outLast_eq (c : Dev nD) (i : grid0.Coords)
    (arg2 : Memref sig .tc .vmem S32x512 .f32) (harg2 : arg2.IsWhole) (arg3 : Memref sig .tc .vmem S32x512 .f32) (harg3 : arg3.IsWhole)
    (arg4 : Memref sig .tc .vmem S32x512 .f32) (harg4 : arg4.IsWhole) (arg5 : Memref sig .tc .vmem S32x512 .f32) (harg5 : arg5.IsWhole)
    (arg6 : Memref sig .tc .vmem S1x1 .f32) (harg6 : arg6.IsWhole) (arg7 : Memref sig .tc .vmem S1x1 .f32) (harg7 : arg7.IsWhole)
    (hc1 : ¬condFirst i) (hc2 : condLast i) (x0 x1 x2 x3 : Vec F S32x512 .f32) (xs : Vec F S1x1 .f32) :
    outLast c i arg2 harg2 arg3 harg3 arg4 harg4 arg5 harg5 arg6 harg6 arg7 harg7 hc1 hc2 x0 x1 x2 x3 xs = k0_pay2 (step i x0 x1 x2 x3 xs) := by
  unfold outLast
  rw [View.read_writes_eq_canon _ _ _ (coverLast c i arg2 harg2 arg3 harg3 arg4 harg4 arg5 harg5 arg6 harg6 arg7 harg7 hc1 hc2 x0 x1 x2 x3 xs)]
  unfold kernelRunLast
  dsimp only
  sl_unfold_words
  rw [View.canon_unit_zero (S := S1x1) zeroOff]
  unfold step
  simp only [View.readAt_eq_ld, harg2.read_unread, harg3.read_unread, harg4.read_unread, harg5.read_unread, harg6.read_unread, harg7.read_unread, View.ld_unit_zero (S := S32x512) zeroOff, View.ld_unit_zero (S := S1x1) zeroOff, View.readCov_unit_zero (S := S1x1) _ zeroOff]

/-! ## The running sum, point by point -/

/-- After the first point the scratch holds one step from the zero. -/
theorem scratch_zero (c : Dev nD) (h : 0 < cfg0.N) :
    (outsAt m c 0 h).2 = step (grid0.coords ⟨0, h⟩) (iblk m c 0 ⟨0, h⟩) (iblk m c 1 ⟨0, h⟩) (iblk m c 2 ⟨0, h⟩) (iblk m c 3 ⟨0, h⟩) (k0_pay3 (F := F)) := by
  have h0 : (⟨0, h⟩ : Fin cfg0.N).val % 64 = 0 := by dsimp only
  have h1 : ¬(⟨0, h⟩ : Fin cfg0.N).val % 64 = 63 := by dsimp only; omega
  rw [outsAt_First m c ⟨0, h⟩ h0 h1]
  dsimp only
  exact soutFirst_eq c (grid0.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) scM (Memref.isWhole_whole _) ((hcondFirst ⟨0, h⟩).mpr h0) (fun hh => h1 ((hcondLast ⟨0, h⟩).mp hh)) (iblk m c 0 ⟨0, h⟩) (iblk m c 1 ⟨0, h⟩) (iblk m c 2 ⟨0, h⟩) (iblk m c 3 ⟨0, h⟩)

/-- After every later point it holds one step from what the point before left. -/
theorem scratch_succ (c : Dev nD) (n : ℕ) (h : n + 1 < cfg0.N) :
    (outsAt m c (n + 1) h).2 = step (grid0.coords ⟨n + 1, h⟩) (iblk m c 0 ⟨n + 1, h⟩) (iblk m c 1 ⟨n + 1, h⟩) (iblk m c 2 ⟨n + 1, h⟩) (iblk m c 3 ⟨n + 1, h⟩) (outsAt m c n (Nat.lt_of_succ_lt h)).2 := by
  have hN : n + 1 < 64 := lt_of_lt_of_eq h (show cfg0.N = 64 from N_0)
  have h0 : ¬(⟨n + 1, h⟩ : Fin cfg0.N).val % 64 = 0 := by dsimp only; omega
  by_cases h1 : (⟨n + 1, h⟩ : Fin cfg0.N).val % 64 = 63
  · rw [outsAt_Last m c ⟨n + 1, h⟩ h0 h1]
    dsimp only
    exact soutLast_eq c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) scM (Memref.isWhole_whole _) (fun hh => h0 ((hcondFirst ⟨n + 1, h⟩).mp hh)) ((hcondLast ⟨n + 1, h⟩).mpr h1) (iblk m c 0 ⟨n + 1, h⟩) (iblk m c 1 ⟨n + 1, h⟩) (iblk m c 2 ⟨n + 1, h⟩) (iblk m c 3 ⟨n + 1, h⟩) (outsAt m c n (Nat.lt_of_succ_lt h)).2
  · rw [outsAt_Mid m c ⟨n + 1, h⟩ h0 h1]
    dsimp only
    exact soutMid_eq c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) scM (Memref.isWhole_whole _) (fun hh => h0 ((hcondFirst ⟨n + 1, h⟩).mp hh)) (fun hh => h1 ((hcondLast ⟨n + 1, h⟩).mp hh)) (iblk m c 0 ⟨n + 1, h⟩) (iblk m c 1 ⟨n + 1, h⟩) (iblk m c 2 ⟨n + 1, h⟩) (iblk m c 3 ⟨n + 1, h⟩) (outsAt m c n (Nat.lt_of_succ_lt h)).2

/-- After the last point the result's buffer holds the scratch's total over the batch size. -/
theorem out_last (c : Dev nD) (h : 63 < cfg0.N) : (outsAt m c 63 h).1 = k0_pay2 (outsAt m c 63 h).2 := by
  have h0 : ¬(⟨63, h⟩ : Fin cfg0.N).val % 64 = 0 := by dsimp only; omega
  have h1 : (⟨63, h⟩ : Fin cfg0.N).val % 64 = 63 := by dsimp only
  rw [outsAt_Last m c ⟨63, h⟩ h0 h1]
  dsimp only
  rw [soutLast_eq c (grid0.coords ⟨63, h⟩) (ms0 ⟨63, h⟩) (hs0 ⟨63, h⟩) (ms1 ⟨63, h⟩) (hs1 ⟨63, h⟩) (ms2 ⟨63, h⟩) (hs2 ⟨63, h⟩) (ms3 ⟨63, h⟩) (hs3 ⟨63, h⟩) (ms4 ⟨63, h⟩) (hs4 ⟨63, h⟩) scM (Memref.isWhole_whole _) (fun hh => h0 ((hcondFirst ⟨63, h⟩).mp hh)) ((hcondLast ⟨63, h⟩).mpr h1) (iblk m c 0 ⟨63, h⟩) (iblk m c 1 ⟨63, h⟩) (iblk m c 2 ⟨63, h⟩) (iblk m c 3 ⟨63, h⟩) (outsAt m c (63 - 1) (Nat.lt_of_le_of_lt (Nat.sub_le _ _) h)).2]
  exact outLast_eq c (grid0.coords ⟨63, h⟩) (ms0 ⟨63, h⟩) (hs0 ⟨63, h⟩) (ms1 ⟨63, h⟩) (hs1 ⟨63, h⟩) (ms2 ⟨63, h⟩) (hs2 ⟨63, h⟩) (ms3 ⟨63, h⟩) (hs3 ⟨63, h⟩) (ms4 ⟨63, h⟩) (hs4 ⟨63, h⟩) scM (Memref.isWhole_whole _) (fun hh => h0 ((hcondFirst ⟨63, h⟩).mp hh)) ((hcondLast ⟨63, h⟩).mpr h1) (iblk m c 0 ⟨63, h⟩) (iblk m c 1 ⟨63, h⟩) (iblk m c 2 ⟨63, h⟩) (iblk m c 3 ⟨63, h⟩) (outsAt m c (63 - 1) (Nat.lt_of_le_of_lt (Nat.sub_le _ _) h)).2

end Cert.KernelIdeal.Frame

end
-- ==== Proof.KI.Value.lean ====
/-
  The kernel's scalar result, at the ideal instance, is the specification's.

  The host's last line reads the 1 × 1 result array as a scalar: both have one element, so the scalar is the array's
  entry at (0, 0). That entry is what the last grid point stored: the scratch after the 64 updates, over the word of
  256. The blocks the updates read are rows of the two argument arrays (tile row `t / 8` and tile column `t % 8` at
  point `t`), the first update starts from the stored zero and each later one from what the one before left, so the
  scratch after the last update is the total over all pairs, written with products by the reciprocal exponential. With
  real log-variances that total is the one written with quotients, and the quotient by the word of 256 is the
  specification's value.
-/
import proofs.«155679_j38474317038467_1_alg».proof.Proof.KI.Fold
import proofs.«155679_j38474317038467_1_alg».proof.Proof.KI.Blocks
import proofs.«155679_j38474317038467_1_alg».proof.Proof.KI.Pieces
import proofs.«155679_j38474317038467_1_alg».proof.Proof.KI.Launch
import proofs.«155679_j38474317038467_1_alg».proof.Proof.SpecLaws

noncomputable section

open scoped BigOperators

namespace Cert.KernelIdeal.Frame

open Cert.KernelIdeal Cert.KernelIdeal.Gen Cert.PairKL
open Idealize.ShloMosaic Idealize.ShloMosaic.TcCoe Idealize.ShloMosaic.ValueIdx
open Idealize.SL Idealize.SL.Sem

/-- A 1 × 1 array read as a scalar is its entry at (0, 0): each shape has one element. -/
theorem scalarOf_apply {F : FTy → Type} [FloatOps F] (A4 : Vec F S1x1 .f32) (i : S_.Idx) :
    scalarOf A4 i = A4 (ix2 0 0) := by
  unfold scalarOf
  refine shapeCast_apply A4 shapeCasts_S1x1_S_ i (ix2 0 0) ?_
  have h1 : (S1x1.rowMajor (ix2 (0 : Fin 1) (0 : Fin 1))).val < 1 := (S1x1.rowMajor _).isLt
  have h2 : (S_.rowMajor i).val < 1 := (S_.rowMajor i).isLt
  omega

/-- The scalar the kernel's program returns, at the ideal instance with real log-variances, is the specification's
    value at the two argument arrays. -/
theorem result_value (m : (ℓ : Loc nD τ sig) → Buf (Elt Ideal) ℓ) (c : Dev nD)
    (hlv : ∀ k, ∃ r : ℝ, m ((c.tc : Thread nD τ).loc main_arg1) k = (r : EReal)) (h63 : 63 < cfg0.N) (i : S_.Idx) :
    scalarOf (F := Ideal) (outsAt m c 63 h63).1 i
      = Cert.PairKL.G (m ((c.tc : Thread nD τ).loc main_arg0)) (m ((c.tc : Thread nD τ).loc main_arg1)) := by
  rw [scalarOf_apply, out_last m c h63]
  -- the 64 updates, over the blocks as rows of the two arrays
  have hfold := fold_value (m ((c.tc : Thread nD τ).loc main_arg0)) (m ((c.tc : Thread nD τ).loc main_arg1))
    (fun t => (iblk m c 0 t : Vec Ideal S32x512 .f32)) (fun t => (iblk m c 1 t : Vec Ideal S32x512 .f32))
    (fun t => (iblk m c 2 t : Vec Ideal S32x512 .f32)) (fun t => (iblk m c 3 t : Vec Ideal S32x512 .f32))
    (fun t a d => iblk0_apply m c t a d) (fun t a d => iblk1_apply m c t a d)
    (fun t b d => iblk2_apply m c t b d) (fun t b d => iblk3_apply m c t b d)
    (fun n h => (outsAt m c n h).2)
    (fun h => scratch_zero m c h) (fun n h => scratch_succ m c n h) h63 (ix2 0 0)
  refine hfold.trans ?_
  rw [total_P_eq_Q _ _ hlv]
  rfl

end Cert.KernelIdeal.Frame

end
-- ==== Proof.RefRead.lean ====
/-
  The reference program's run and its operations read at an index (both generated), gathered for the modules
  that state what the reference computes.
-/
import proofs.«155679_j38474317038467_1_alg».proof.Proof.Gen.ReferenceIdeal.Run
import proofs.«155679_j38474317038467_1_alg».proof.Proof.Gen.ReferenceIdeal.Read
-- ==== Proof.RefValue.lean ====
/-
  What the reference program computes, read index by index: the pairwise-divergence total of the specification over
  the batch size.

  Every operation of the reference is read at one index. Element `(i, j, d)` of the rank-3 intermediate is the summand
  with quotients at the means and log-variances of rows `i` and `j`, coordinate `d` (the broadcasts only pick which row
  an operand is read at); the inner reduction sums it over `d` from the initial value zero, and the scalar one half
  multiplies that sum. The mask is one minus the indicator of the diagonal: rows and columns are numbered below 256, so
  their 32-bit words are equal exactly when the numbers are, and the indicator converts to the real 1 or 0. The outer
  reduction sums the masked entries over all pairs from the initial value zero, and the last operation divides by the
  word of 256.
-/
import proofs.«155679_j38474317038467_1_alg».proof.Proof.RefRead
import proofs.«155679_j38474317038467_1_alg».proof.Proof.Spec
import Idealize.ShloMosaic.Lib.IdealHost

noncomputable section

open scoped BigOperators

namespace Cert.ReferenceIdeal.RefValue

open Cert.ReferenceIdeal Cert.ReferenceIdeal.Read Cert.PairKL
open Idealize.ShloMosaic Idealize.ShloMosaic.ValueIdx

/-! ## The mask -/

/-- The converted comparison of a row number with a column number, both below 256, is the indicator of the
    diagonal: adding the zero word changes nothing, and two numbers below 2³² have equal words only when equal. -/
theorem diag_indicator (i j : Fin 256) :
    FloatOps.uitofp (F := Ideal) .f32
        (IntOp.cmpi .eq (IntOp.addi (BitVec.ofNat 32 i.val) 0#32) (BitVec.ofNat 32 j.val))
      = if i = j then (1 : EReal) else 0 := by
  show (((BitVec.ofBool (BitVec.ofNat 32 i.val + 0#32 == BitVec.ofNat 32 j.val)).toNat : ℝ) : EReal) = _
  rw [BitVec.add_zero]
  by_cases h : i = j
  · subst h; simp
  · rw [if_neg h]
    have hne : (BitVec.ofNat 32 i.val == BitVec.ofNat 32 j.val) = false := by
      rw [beq_eq_false_iff_ne]
      intro e
      have e' := congrArg BitVec.toNat e
      rw [BitVec.toNat_ofNat, BitVec.toNat_ofNat] at e'
      apply h; apply Fin.ext
      have := i.isLt; have := j.isLt
      omega
    rw [hne]; simp

/-- One minus that indicator is the off-diagonal mask of the specification. -/
theorem one_sub_diag (i j : Fin 256) :
    Ideal.ofBits .f32 0x3F800000#32 - (if i = j then (1 : EReal) else 0) = offDiag i j := by
  rw [Ideal.ofBits_one_f32]
  unfold offDiag
  by_cases h : i = j
  · rw [if_pos h, if_pos h, ← EReal.coe_one, ← EReal.coe_sub, sub_self, EReal.coe_zero]
  · rw [if_neg h, if_neg h, sub_zero]

/-! ## The summand -/

section
variable (x0 x1 : (⟨S256x512, .f32⟩ : BufTy).Contents (Elt Ideal))

/-- Element `(i, j, d)` of the rank-3 intermediate is the summand with quotients, at rows `i` and `j`, coordinate `d`. -/
theorem summand_apply (i j : Fin 256) (d : Fin 512) :
    val_main_v22 (F := Ideal) x0 x1 (idx_main_v23 (ix2 i j) d)
      = termQ (x0 (ix2 i d)) (x1 (ix2 i d)) (x0 (ix2 j d)) (x1 (ix2 j d)) := by
  -- which row each broadcast operand is read at
  have e4_7 : idx_main_v4 (idx_main_v7 (idx_main_v23 (ix2 i j) d)) = ix2 j d :=
    funext fun a => Fin.ext (by match a with | ⟨0, _⟩ => rfl | ⟨1, _⟩ => rfl)
  have e3_8 : idx_main_v3 (idx_main_v8 (idx_main_v23 (ix2 i j) d)) = ix2 i d :=
    funext fun a => Fin.ext (by match a with | ⟨0, _⟩ => rfl | ⟨1, _⟩ => rfl)
  have e5_10 : idx_main_v5 (idx_main_v10 (idx_main_v23 (ix2 i j) d)) = ix2 i d :=
    funext fun a => Fin.ext (by match a with | ⟨0, _⟩ => rfl | ⟨1, _⟩ => rfl)
  have e6_11 : idx_main_v6 (idx_main_v11 (idx_main_v23 (ix2 i j) d)) = ix2 j d :=
    funext fun a => Fin.ext (by match a with | ⟨0, _⟩ => rfl | ⟨1, _⟩ => rfl)
  have e1_14 : idx_main_v1 (idx_main_v14 (idx_main_v23 (ix2 i j) d)) = ix2 i d :=
    funext fun a => Fin.ext (by match a with | ⟨0, _⟩ => rfl | ⟨1, _⟩ => rfl)
  have e2_15 : idx_main_v2 (idx_main_v15 (idx_main_v23 (ix2 i j) d)) = ix2 j d :=
    funext fun a => Fin.ext (by match a with | ⟨0, _⟩ => rfl | ⟨1, _⟩ => rfl)
  have e6_18 : idx_main_v6 (idx_main_v18 (idx_main_v23 (ix2 i j) d)) = ix2 j d :=
    funext fun a => Fin.ext (by match a with | ⟨0, _⟩ => rfl | ⟨1, _⟩ => rfl)
  simp only [val_main_v22_apply, val_main_v20_apply, val_main_v13_apply, val_main_v9_apply, val_main_v12_apply,
    val_main_v19_apply, val_main_v17_apply, val_main_v16_apply, val_main_v21_apply, val_main_cst_apply,
    val_main_v7_apply, val_main_v8_apply, val_main_v10_apply, val_main_v11_apply, val_main_v14_apply,
    val_main_v15_apply, val_main_v18_apply, val_main_v4_apply, val_main_v3_apply, val_main_v5_apply,
    val_main_v6_apply, val_main_v1_apply, val_main_v2_apply, val_main_v0_apply,
    e4_7, e3_8, e5_10, e6_11, e1_14, e2_15, e6_18]
  simp only [Ideal.addf_def, Ideal.subf_def, Ideal.mulf_def, Ideal.hostDivf_def, Ideal.hostUnary_exp_def,
    Ideal.ofBits_def]
  rfl

/-- Entry `(i, j)` of the masked matrix is one half of the sum of the summands over the coordinates, times the
    off-diagonal mask. -/
theorem masked_apply (i j : Fin 256) :
    val_main_v34 (F := Ideal) x0 x1 (ix2 i j) = kl termQ x0 x1 i j * offDiag i j := by
  rw [val_main_v34_apply, val_main_v25_apply, val_main_v24_apply, val_main_cst_1_apply, val_main_v23_apply,
    val_main_cst_0_apply, val_main_v33_apply, val_main_v32_apply, val_main_cst_2_apply, val_main_v31_apply,
    val_main_v30_apply, val_main_v29_apply, val_main_v26_apply, val_main_v28_apply, val_main_c_apply,
    val_main_v27_apply]
  simp only [summand_apply]
  simp only [Ideal.subf_def, Ideal.mulf_def, Ideal.ofBits_def]
  rw [Ideal.ofBits_zero_f32, zero_add]
  show _ * (Ideal.ofBits .f32 0x3F800000#32
      - FloatOps.uitofp (F := Ideal) .f32
          (IntOp.cmpi .eq (IntOp.addi (BitVec.ofNat 32 i.val) 0#32) (BitVec.ofNat 32 j.val))) = _
  rw [diag_indicator, one_sub_diag]
  rfl

/-- The reference's result is the specification's. -/
theorem ref_value : Cert.ReferenceIdeal.Read.val_main_v36 (F := Ideal) x0 x1 = fun _ => Cert.PairKL.G x0 x1 := by
  funext i
  rw [val_main_v36_apply, val_main_v35_apply, val_main_cst_3_apply, val_main_cst_4_apply, sum_idx2]
  simp only [masked_apply]
  simp only [Ideal.hostDivf_def, Ideal.ofBits_def]
  rw [Ideal.ofBits_zero_f32, zero_add]
  rfl

end

end Cert.ReferenceIdeal.RefValue

end
-- ==== Proof.Finite.lean ====
/-
  From the precondition to "every entry of both arrays is a real".

  The precondition is the conjunction of two statements of the same form, one per array: the conjunction, over all
  256 × 512 positions, of the comparison  |x| < +∞ , where |x| is max x (−x) on the extended reals and +∞ is the
  value of the single-precision word with an all-ones exponent and a zero fraction. A conjunction of bits that comes
  out 1 had a 1 at every position, so |x| < ⊤ holds at every position. An extended real is ⊥, a real, or ⊤; at ⊥ the
  absolute value is max ⊥ ⊤ = ⊤ and at ⊤ it is max ⊤ ⊥ = ⊤, neither strictly below ⊤: only the reals are left.
-/
import proofs.«155679_j38474317038467_1_alg».proof.Defs
import Idealize.ShloMosaic.Lib.ReduceAll
import Idealize.ShloMosaic.Lib.ValueIdx

noncomputable section

namespace Cert.Proof.Finite

open Idealize.ShloMosaic

/-- The rank-0 shape has one index: two functions out of the empty type of axes agree. -/
instance : Subsingleton Cert.Pre_finite_inputs.S_.Idx := ⟨fun a b => funext fun d => d.elim0⟩

/-- The word with exponent field all ones and fraction zero, sign clear, denotes +∞. -/
theorem inf_word : Ideal.ofBits .f32 0x7F800000#32 = (⊤ : EReal) := by
  simp [Ideal.ofBits, Ideal.ieee]

/-- An extended real whose absolute value max x (−x) is strictly below ⊤ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The bit of a strict comparison is 1 exactly when the comparison holds. -/
theorem lt_of_cmp_olt (x y : EReal) (h : Ideal.cmp .olt x y = 1#1) : x < y := by
  unfold Ideal.cmp at h
  by_contra hn
  simp [hn] at h

/-- One position of one array: the comparison bit |x k| < +∞ being 1 makes x k a real. The comparison, the absolute
    value and the broadcast constant all act position by position, so the bit at k is the comparison of max (x k) (−x k)
    with the value of the infinity word. -/
theorem real_of_cmp [hP : Cert.Pre_finite_inputs.Facts] (x : FVec Ideal Cert.Pre_finite_inputs.S256x512 .f32)
    (k : Cert.Pre_finite_inputs.S256x512.Idx)
    (e : cmpf .olt (Host.absf x)
        (broadcastInDim Cert.Pre_finite_inputs.S256x512 ![] Cert.Pre_finite_inputs.Facts.bcast_S_S256x512
          (constant (F := Ideal) Cert.Pre_finite_inputs.S_ .f32 0x7F800000#32)) k = 1#1) :
    ∃ r : ℝ, x k = (r : EReal) := by
  have e' : Ideal.cmp .olt (max (x k) (-(x k))) (Ideal.ofBits .f32 0x7F800000#32) = 1#1 := e
  rw [inf_word] at e'
  exact real_of_abs_lt_top (x k) (lt_of_cmp_olt _ _ e')

theorem finite_of_pre [hP : Cert.Pre_finite_inputs.Facts]
    (x0 x1 : FVec Ideal Cert.Pre_finite_inputs.S256x512 .f32)
    (h : Cert.Pre_finite_inputs.fn (F := Ideal) x0 x1 = (fun _ => 1#1)) :
    (∀ k, ∃ r : ℝ, x0 k = (r : EReal)) ∧ (∀ k, ∃ r : ℝ, x1 k = (r : EReal)) := by
  have h0 := congrFun h ValueIdx.ix0
  dsimp only [Cert.Pre_finite_inputs.fn, andi] at h0
  obtain ⟨ha, hb⟩ := IntOp.andi_eq_one.1 h0
  refine ⟨fun k => ?_, fun k => ?_⟩
  · exact real_of_cmp x0 k (Host.reduce_andi_all _ _ _ _ _ ha k)
  · exact real_of_cmp x1 k (Host.reduce_andi_all _ _ _ _ _ hb k)

end Cert.Proof.Finite

end
-- ==== Proof.lean ====
/-
  The certificate: the kernel that sums, tile by tile over an 8 × 8 grid, the pairwise Kullback–Leibler divergences of 256
  diagonal Gaussians (the diagonal masked out) and divides by the batch size, against the reference that forms all
  256 × 256 pairs at once.

  * The three frames. Both printings of the kernel (word-level and idealized) run the same pipeline: four input
    windows, two on each argument array and so each holding half of that array's share; a 1 × 1 result window written
    back once, after the last point; a 1 × 1 scratch carrying the running sum. Each grid point's body is run in its
    control case (first point: the scratch is zeroed; last point: the result is stored; otherwise neither), the
    launch splits the two argument buffers between the windows that read them, and the host reshape after the
    region reads the result array. The reference has no kernel: its frame is its run with the result dropped.
  * `preserves`: the idealization rewrote nothing.
  * `algebraic`: at the extended reals the kernel's scalar is  (Σ_t p_t) / 256  with  p_t  the masked sum over tile t of
    ½ Σ_d [ (λ_j − λ_i) + e^{λ_i} e^{0−λ_j} + (μ_i − μ_j)² e^{0−λ_j} − 1 ];  the reference's is the same with quotients by
    e^{λ_j} and one sum over all pairs. The precondition makes every λ a real, where e^{0−x} = 1/e^{x} and a quotient by
    a nonzero real is the product with its reciprocal; the tiles partition the pairs, and addition of extended reals
    is commutative and associative. Both results are the function `G` of the two argument arrays.
-/
import proofs.«155679_j38474317038467_1_alg».proof.Defs
import proofs.«155679_j38474317038467_1_alg».proof.Proof.Gen.Kernel
import proofs.«155679_j38474317038467_1_alg».proof.Proof.Gen.KernelIdeal
import proofs.«155679_j38474317038467_1_alg».proof.Proof.Gen.ReferenceIdeal
import proofs.«155679_j38474317038467_1_alg».proof.Proof.Gen.Pre_finite_inputs
import proofs.«155679_j38474317038467_1_alg».proof.Proof.K.Final
import proofs.«155679_j38474317038467_1_alg».proof.Proof.KI.Final
import proofs.«155679_j38474317038467_1_alg».proof.Proof.KI.Value
import proofs.«155679_j38474317038467_1_alg».proof.Proof.RefValue
import proofs.«155679_j38474317038467_1_alg».proof.Proof.Finite

noncomputable section

namespace Cert.Proof

open Idealize.ShloMosaic Idealize.ShloMosaic.TcCoe Idealize.SL.Sem

theorem frame_kernel : Cert.frame_Kernel := fun m ρ _ => Cert.Kernel.Frame.frame m ρ

theorem frame_kernelIdeal : Cert.frame_KernelIdeal := fun m ρ _ => Cert.KernelIdeal.Frame.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the scalar `G` of the two argument arrays. -/
theorem algebraic : Cert.algebraic_KernelIdeal_ReferenceIdeal := by
  intro m ρ m' ρ' hpre hagree
  have h63 : 63 < Cert.KernelIdeal.cfg0.N := lt_of_lt_of_eq (by decide) Cert.KernelIdeal.Gen.N_0.symm
  refine ⟨fun c => fun _ => Cert.PairKL.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2.1, (h c).2.2⟩)
      (Cert.KernelIdeal.Frame.run_out m ρ h63)
    funext i
    exact Cert.KernelIdeal.Frame.result_value m c (Cert.Proof.Finite.finite_of_pre _ _ (hpre c)).2 h63 i
  · refine (θ_run Cert.ReferenceIdeal.defs _ _).mono (fun _ h c => ⟨(h c).1.trans ?_, (h c).2.1, (h c).2.2⟩)
      (Cert.ReferenceIdeal.Value.run (F := Ideal) m' ρ')
    rw [Cert.ReferenceIdeal.Read.val_main_v36_eq, Cert.ReferenceIdeal.RefValue.ref_value, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
